-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S800000x3 : Shape := ⟨2, ![800000, 3]⟩
abbrev S50000x3 : Shape := ⟨2, ![50000, 3]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x3 : S_.BroadcastsInDim S800000x3 (![] : Fin 0 → Fin S800000x3.rank)
  reducesTo_S800000x3_S_d0_1 : S800000x3.ReducesTo [0, 1] S_
  bcast_S_S50000x3 : S_.BroadcastsInDim S50000x3 (![] : Fin 0 → Fin S50000x3.rank)
  reducesTo_S50000x3_S_d0_1 : S50000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S256x128 : S_.BroadcastsInDim S256x128 (![] : Fin 0 → Fin S256x128.rank)
  reducesTo_S256x128_S_d0_1 : S256x128.ReducesTo [0, 1] S_
  bcast_S_S800000 : S_.BroadcastsInDim S800000 (![] : Fin 0 → Fin S800000.rank)
  reducesTo_S800000_S_d0 : S800000.ReducesTo [0] S_

variable [Facts]

def fn_part4 {F : FTy → Type} [FloatOps F] (main_arg2 : IVec S800000 32) (main_v67 : IVec S_ 1) : IVec S_ 1 :=
  let main_c_26 : IVec S_ 32 := constantI S_ 32 50000#32
  let main_v68 : IVec S800000 32 := broadcastInDim S800000 ![] bcast_S_S800000 main_c_26
  let main_v69 : IVec S800000 1 := cmpi .slt main_arg2 main_v68
  let main_c_27 : IVec S_ 1 := constantI S_ 1 1#1
  let main_v70 : IVec S_ 1 := (fun x v => Host.reduce IntOp.andi x v reducesTo_S800000_S_d0 h_S_) main_v69 main_c_27
  let main_v71 : IVec S_ 1 := andi main_v67 main_v70
  main_v71

def fn_part3 {F : FTy → Type} [FloatOps F] (main_arg2 : IVec S800000 32) (main_arg13 : FVec F S64 .f32) (main_arg14 : FVec F S64x1 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg14
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_c_24 : IVec S_ 32 := constantI S_ 32 4294917296#32
  let main_v64 : IVec S800000 32 := broadcastInDim S800000 ![] bcast_S_S800000 main_c_24
  let main_v65 : IVec S800000 1 := cmpi .sge main_arg2 main_v64
  let main_c_25 : IVec S_ 1 := constantI S_ 1 1#1
  let main_v66 : IVec S_ 1 := (fun x v => Host.reduce IntOp.andi x v reducesTo_S800000_S_d0 h_S_) main_v65 main_c_25
  let main_v67 : IVec S_ 1 := andi main_v63 main_v66
  fn_part4 (F := F) main_arg2 main_v67

def fn_part2 {F : FTy → Type} [FloatOps F] (main_arg2 : IVec S800000 32) (main_arg9 : FVec F S64x1 .f32) (main_arg10 : FVec F S256x128 .f32) (main_arg11 : FVec F S128 .f32) (main_arg12 : FVec F S128x64 .f32) (main_arg13 : FVec F S64 .f32) (main_arg14 : FVec F S64x1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg2 main_arg13 main_arg14 main_v48 main_v49 main_v50

def fn_part1 {F : FTy → Type} [FloatOps F] (main_arg2 : IVec S800000 32) (main_arg6 : FVec F S128 .f32) (main_arg7 : FVec F S128x64 .f32) (main_arg8 : FVec F S64 .f32) (main_arg9 : FVec F S64x1 .f32) (main_arg10 : FVec F S256x128 .f32) (main_arg11 : FVec F S128 .f32) (main_arg12 : FVec F S128x64 .f32) (main_arg13 : FVec F S64 .f32) (main_arg14 : FVec F S64x1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg9 main_arg10 main_arg11 main_arg12 main_arg13 main_arg14 main_v33

def fn {F : FTy → Type} [FloatOps F] (main_arg0 : FVec F S50000x128 .f32) (main_arg1 : IVec S800000 32) (main_arg2 : IVec S800000 32) (main_arg3 : FVec F S800000x3 .f32) (main_arg4 : FVec F S50000x3 .f32) (main_arg5 : FVec F S128x128 .f32) (main_arg6 : FVec F S128 .f32) (main_arg7 : FVec F S128x64 .f32) (main_arg8 : FVec F S64 .f32) (main_arg9 : FVec F S64x1 .f32) (main_arg10 : FVec F S256x128 .f32) (main_arg11 : FVec F S128 .f32) (main_arg12 : FVec F S128x64 .f32) (main_arg13 : FVec F S64 .f32) (main_arg14 : FVec F S64x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x3 .f32 := Host.absf main_arg3
  let main_cst_0 : FVec F S_ .f32 := constant S_ .f32 0x7F800000#32
  let main_v5 : FVec F S800000x3 .f32 := broadcastInDim S800000x3 ![] bcast_S_S800000x3 main_cst_0
  let main_v6 : IVec S800000x3 1 := cmpf .olt main_v4 main_v5
  let main_c_1 : IVec S_ 1 := constantI S_ 1 1#1
  let main_v7 : IVec S_ 1 := (fun x v => Host.reduce IntOp.andi x v reducesTo_S800000x3_S_d0_1 h_S_) main_v6 main_c_1
  let main_v8 : IVec S_ 1 := andi main_v3 main_v7
  let main_v9 : FVec F S50000x3 .f32 := Host.absf main_arg4
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg6 main_arg7 main_arg8 main_arg9 main_arg10 main_arg11 main_arg12 main_arg13 main_arg14 main_v13 main_v16
-- ==== Kernel.lean ====
abbrev S50000x128 : Shape := ⟨2, ![50000, 128]⟩
abbrev S800000 : Shape := ⟨1, ![800000]⟩
abbrev S800000x3 : Shape := ⟨2, ![800000, 3]⟩
abbrev S50000x3 : Shape := ⟨2, ![50000, 3]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S256x128 : Shape := ⟨2, ![256, 128]⟩
abbrev S1x128 : Shape := ⟨2, ![1, 128]⟩
abbrev S1x64 : Shape := ⟨2, ![1, 64]⟩
abbrev S1x1 : Shape := ⟨2, ![1, 1]⟩
abbrev S2000x128 : Shape := ⟨2, ![2000, 128]⟩
abbrev S2000x64 : Shape := ⟨2, ![2000, 64]⟩
abbrev S2000x1 : Shape := ⟨2, ![2000, 1]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S4000x256 : Shape := ⟨2, ![4000, 256]⟩
abbrev S4000x3 : Shape := ⟨2, ![4000, 3]⟩
abbrev S4000x128 : Shape := ⟨2, ![4000, 128]⟩
abbrev S4000x64 : Shape := ⟨2, ![4000, 64]⟩
abbrev S4000x1 : Shape := ⟨2, ![4000, 1]⟩

abbrev nBuf : Space → Nat
  | .hbm => 72
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000x3, .f32⟩
  | .hbm, ⟨4, _⟩ => ⟨S50000x3, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S256x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x1, .f32⟩
  | .hbm, ⟨15, _⟩ => ⟨S1x128, .f32⟩
  | .hbm, ⟨16, _⟩ => ⟨S1x64, .f32⟩
  | .hbm, ⟨17, _⟩ => ⟨S1x1, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S1, .i32⟩
  | .hbm, ⟨27, _⟩ => ⟨S_, .i32⟩
  | .hbm, ⟨28, _⟩ => ⟨S800000x1, .i32⟩
  | .hbm, ⟨29, _⟩ => ⟨S800000x1, .i1⟩
  | .hbm, ⟨30, _⟩ => ⟨S1x1, .i32⟩
  | .hbm, ⟨31, _⟩ => ⟨S800000x1, .i32⟩
  | .hbm, ⟨32, _⟩ => ⟨S800000x1, .i1⟩
  | .hbm, ⟨33, _⟩ => ⟨S800000x1, .i1⟩
  | .hbm, ⟨34, _⟩ => ⟨S_, .i1⟩
  | .hbm, ⟨35, _⟩ => ⟨S800000, .i1⟩
  | .hbm, ⟨36, _⟩ => ⟨S800000x128, .f32⟩
  | .hbm, ⟨37, _⟩ => ⟨S800000x128, .i1⟩
  | .hbm, ⟨38, _⟩ => ⟨S_, .f32⟩
  | .hbm, ⟨39, _⟩ => ⟨S800000x128, .f32⟩
  | .hbm, ⟨40, _⟩ => ⟨S800000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S1, .i32⟩
  | .hbm, ⟨50, _⟩ => ⟨S_, .i32⟩
  | .hbm, ⟨51, _⟩ => ⟨S800000x1, .i32⟩
  | .hbm, ⟨52, _⟩ => ⟨S800000x1, .i1⟩
  | .hbm, ⟨53, _⟩ => ⟨S1x1, .i32⟩
  | .hbm, ⟨54, _⟩ => ⟨S800000x1, .i32⟩
  | .hbm, ⟨55, _⟩ => ⟨S800000x1, .i1⟩
  | .hbm, ⟨56, _⟩ => ⟨S800000x1, .i1⟩
  | .hbm, ⟨57, _⟩ => ⟨S_, .i1⟩
  | .hbm, ⟨58, _⟩ => ⟨S800000, .i1⟩
  | .hbm, ⟨59, _⟩ => ⟨S800000x128, .f32⟩
  | .hbm, ⟨60, _⟩ => ⟨S800000x128, .i1⟩
  | .hbm, ⟨61, _⟩ => ⟨S_, .f32⟩
  | .hbm, ⟨62, _⟩ => ⟨S800000x128, .f32⟩
  | .hbm, ⟨63, _⟩ => ⟨S800000x128, .f32⟩
  | .hbm, ⟨64, _⟩ => ⟨S800000x256, .f32⟩
  | .hbm, ⟨65, _⟩ => ⟨S1x128, .f32⟩
  | .hbm, ⟨66, _⟩ => ⟨S1x64, .f32⟩
  | .hbm, ⟨67, _⟩ => ⟨S800000x3, .f32⟩
  | .hbm, ⟨68, _⟩ => ⟨S_, .f32⟩
  | .hbm, ⟨69, _⟩ => ⟨S50000x3, .f32⟩
  | .hbm, ⟨70, _⟩ => ⟨S800000x1, .i32⟩
  | .hbm, ⟨71, _⟩ => ⟨S50000x3, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S64x1, .f32⟩
  | .local _ .vmem, ⟨7, _⟩ => ⟨S1x1, .f32⟩
  | .local _ .vmem, ⟨8, _⟩ => ⟨S4000x256, .f32⟩
  | .local _ .vmem, ⟨9, _⟩ => ⟨S4000x256, .f32⟩
  | .local _ .vmem, ⟨10, _⟩ => ⟨S4000x3, .f32⟩
  | .local _ .vmem, ⟨11, _⟩ => ⟨S4000x3, .f32⟩
  | .local _ .vmem, ⟨12, _⟩ => ⟨S256x128, .f32⟩
  | .local _ .vmem, ⟨13, _⟩ => ⟨S1x128, .f32⟩
  | .local _ .vmem, ⟨14, _⟩ => ⟨S128x64, .f32⟩
  | .local _ .vmem, ⟨15, _⟩ => ⟨S1x64, .f32⟩
  | .local _ .vmem, ⟨16, _⟩ => ⟨S64x1, .f32⟩
  | .local _ .vmem, ⟨17, _⟩ => ⟨S4000x3, .f32⟩
  | .local _ .vmem, ⟨18, _⟩ => ⟨S4000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v3 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v4 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_cst : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x3 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S128_S1x128 : S128.ShapeCasts S1x128
  shapeCasts_S64_S1x64 : S64.ShapeCasts S1x64
  inb_S1x1_S1x1_0_0 : ∀ a, (![0, 0] : Fin 2 → Nat) a + S1x1.size a ≤ S1x1.size a
  h_S1x1 : 0 < S1x1.numel
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  shapeCasts_S1x1_S1x1 : S1x1.ShapeCasts S1x1
  reduces_S2000x1_S1 : S2000x1.Reduces [0] S1
  shapeCasts_S1_S1x1 : S1.ShapeCasts S1x1
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  concatenates_S800000x128_S800000x128_S800000x256_d1 : Shape.Concatenates [S800000x128, S800000x128] S800000x256 1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  broadcasts_S1x128_S4000x128 : S1x128.Broadcasts S4000x128
  broadcasts_S1x64_S4000x64 : S1x64.Broadcasts S4000x64
  inb_S4000x3_S4000x3_0_0 : ∀ a, (![0, 0] : Fin 2 → Nat) a + S4000x3.size a ≤ S4000x3.size a
  h_S4000x3 : 0 < S4000x3.numel
  broadcasts_S4000x1_S4000x3 : S4000x1.Broadcasts S4000x3
  bcast_S_S50000x3 : S_.BroadcastsInDim S50000x3 (![] : Fin 0 → Fin S50000x3.rank)
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  dot_S2000x64_S64x1_S2000x1_1_0_0_1_n_n_wf : DotDims.WF S2000x64 S64x1 S2000x1 [1] [0] [0] [1] [] []
  gather_S50000x128_S800000x1_S800000x128_1_0_n_n_0_1_1128_wf : GatherDims.WF S50000x128 S800000x1 S800000x128 [1] [0] [] [0] [] 1 ![1, 128]
  dot_S4000x256_S256x128_S4000x128_1_0_0_1_n_n_wf : DotDims.WF S4000x256 S256x128 S4000x128 [1] [0] [0] [1] [] []
  dot_S4000x128_S128x64_S4000x64_1_0_0_1_n_n_wf : DotDims.WF S4000x128 S128x64 S4000x64 [1] [0] [0] [1] [] []
  dot_S4000x64_S64x1_S4000x1_1_0_0_1_n_n_wf : DotDims.WF S4000x64 S64x1 S4000x1 [1] [0] [0] [1] [] []
  scatter_S50000x3_S800000x1_S800000x3_1_0_0_1_wf : ScatterDims.WF S50000x3 S800000x1 S800000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S800000x256.size a
  hwx1_0 : ∀ i : grid1.Coords, EltTy.bits .f32 = 32 ∨ (Rect.block (s := S800000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x3.size a ≤ S800000x3.size a
  hwx1_1 : ∀ i : grid1.Coords, EltTy.bits .f32 = 32 ∨ (Rect.block (s := S800000x3) S4000x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x3.size a ≤ S800000x3.size a
  hwx1_7 : ∀ i : grid1.Coords, EltTy.bits .f32 = 32 ∨ (Rect.block (s := S800000x3) S4000x3.size (cc1_transform_7 i) (hinb1_7 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S4000x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S64x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S4000x3.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S800000x3 : Shape := ⟨2, ![800000, 3]⟩
abbrev S50000x3 : Shape := ⟨2, ![50000, 3]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S256x128 : Shape := ⟨2, ![256, 128]⟩
abbrev S1x128 : Shape := ⟨2, ![1, 128]⟩
abbrev S_ : Shape := ⟨0, ![]⟩
abbrev S50000x64 : Shape := ⟨2, ![50000, 64]⟩
abbrev S1x64 : Shape := ⟨2, ![1, 64]⟩
abbrev S50000x1 : Shape := ⟨2, ![50000, 1]⟩
abbrev S1 : Shape := ⟨1, ![1]⟩
abbrev S1x1 : Shape := ⟨2, ![1, 1]⟩
abbrev S800000x1 : Shape := ⟨2, ![800000, 1]⟩
abbrev S800000x128 : Shape := ⟨2, ![800000, 128]⟩
abbrev S800000x256 : Shape := ⟨2, ![800000, 256]⟩
abbrev S800000x64 : Shape := ⟨2, ![800000, 64]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000x3, .f32⟩
  | .hbm, ⟨4, _⟩ => ⟨S50000x3, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S256x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x1, .f32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S_, .f32⟩
  | .hbm, ⟨22, _⟩ => ⟨S50000x128, .f32⟩
  | .hbm, ⟨23, _⟩ => ⟨S50000x128, .f32⟩
  | .hbm, ⟨24, _⟩ => ⟨S_, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S50000x64, .f32⟩
  | .hbm, ⟨29, _⟩ => ⟨S1x64, .f32⟩
  | .hbm, ⟨30, _⟩ => ⟨S50000x64, .f32⟩
  | .hbm, ⟨31, _⟩ => ⟨S50000x64, .f32⟩
  | .hbm, ⟨32, _⟩ => ⟨S50000x64, .f32⟩
  | .hbm, ⟨33, _⟩ => ⟨S50000x64, .f32⟩
  | .hbm, ⟨34, _⟩ => ⟨S_, .f32⟩
  | .hbm, ⟨35, _⟩ => ⟨S50000x64, .f32⟩
  | .hbm, ⟨36, _⟩ => ⟨S50000x64, .f32⟩
  | .hbm, ⟨37, _⟩ => ⟨S_, .f32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S50000x1, .f32⟩
  | .hbm, ⟨42, _⟩ => ⟨S_, .f32⟩
  | .hbm, ⟨43, _⟩ => ⟨S1, .f32⟩
  | .hbm, ⟨44, _⟩ => ⟨S1x1, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S800000x256, .f32⟩
  | .hbm, ⟨64, _⟩ => ⟨S800000x128, .f32⟩
  | .hbm, ⟨65, _⟩ => ⟨S1x128, .f32⟩
  | .hbm, ⟨66, _⟩ => ⟨S800000x128, .f32⟩
  | .hbm, ⟨67, _⟩ => ⟨S800000x128, .f32⟩
  | .hbm, ⟨68, _⟩ => ⟨S800000x128, .f32⟩
  | .hbm, ⟨69, _⟩ => ⟨S800000x128, .f32⟩
  | .hbm, ⟨70, _⟩ => ⟨S_, .f32⟩
  | .hbm, ⟨71, _⟩ => ⟨S800000x128, .f32⟩
  | .hbm, ⟨72, _⟩ => ⟨S800000x128, .f32⟩
  | .hbm, ⟨73, _⟩ => ⟨S_, .f32⟩
  | .hbm, ⟨74, _⟩ => ⟨S800000x128, .f32⟩
  | .hbm, ⟨75, _⟩ => ⟨S800000x128, .f32⟩
  | .hbm, ⟨76, _⟩ => ⟨S800000x128, .f32⟩
  | .hbm, ⟨77, _⟩ => ⟨S800000x64, .f32⟩
  | .hbm, ⟨78, _⟩ => ⟨S1x64, .f32⟩
  | .hbm, ⟨79, _⟩ => ⟨S800000x64, .f32⟩
  | .hbm, ⟨80, _⟩ => ⟨S800000x64, .f32⟩
  | .hbm, ⟨81, _⟩ => ⟨S800000x64, .f32⟩
  | .hbm, ⟨82, _⟩ => ⟨S800000x64, .f32⟩
  | .hbm, ⟨83, _⟩ => ⟨S_, .f32⟩
  | .hbm, ⟨84, _⟩ => ⟨S800000x64, .f32⟩
  | .hbm, ⟨85, _⟩ => ⟨S800000x64, .f32⟩
  | .hbm, ⟨86, _⟩ => ⟨S_, .f32⟩
  | .hbm, ⟨87, _⟩ => ⟨S800000x64, .f32⟩
  | .hbm, ⟨88, _⟩ => ⟨S800000x64, .f32⟩
  | .hbm, ⟨89, _⟩ => ⟨S800000x64, .f32⟩
  | .hbm, ⟨90, _⟩ => ⟨S800000x1, .f32⟩
  | .hbm, ⟨91, _⟩ => ⟨S800000x3, .f32⟩
  | .hbm, ⟨92, _⟩ => ⟨S800000x3, .f32⟩
  | .hbm, ⟨93, _⟩ => ⟨S_, .f32⟩
  | .hbm, ⟨94, _⟩ => ⟨S50000x3, .f32⟩
  | .hbm, ⟨95, _⟩ => ⟨S800000x1, .i32⟩
  | .hbm, ⟨96, _⟩ => ⟨S50000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_c : Ref sig .tc := ⟨.hbm, 45, rfl⟩
abbrev main_v13 : Ref sig .tc := ⟨.hbm, 46, rfl⟩
abbrev main_v14 : Ref sig .tc := ⟨.hbm, 47, rfl⟩
abbrev main_c_0 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_c_1 : Ref sig .tc := ⟨.hbm, 54, rfl⟩
abbrev main_v20 : Ref sig .tc := ⟨.hbm, 55, rfl⟩
abbrev main_v21 : Ref sig .tc := ⟨.hbm, 56, rfl⟩
abbrev main_c_2 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_call2_v0 : Ref sig .tc := ⟨.hbm, 68, rfl⟩
abbrev main_call2_v1 : Ref sig .tc := ⟨.hbm, 69, rfl⟩
abbrev main_call2_cst : Ref sig .tc := ⟨.hbm, 70, rfl⟩
abbrev main_call2_v2 : Ref sig .tc := ⟨.hbm, 71, rfl⟩
abbrev main_call2_v3 : Ref sig .tc := ⟨.hbm, 72, rfl⟩
abbrev main_call2_cst_0 : Ref sig .tc := ⟨.hbm, 73, rfl⟩
abbrev main_call2_v4 : Ref sig .tc := ⟨.hbm, 74, rfl⟩
abbrev main_call2_v5 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_call3_v0 : Ref sig .tc := ⟨.hbm, 81, rfl⟩
abbrev main_call3_v1 : Ref sig .tc := ⟨.hbm, 82, rfl⟩
abbrev main_call3_cst : Ref sig .tc := ⟨.hbm, 83, rfl⟩
abbrev main_call3_v2 : Ref sig .tc := ⟨.hbm, 84, rfl⟩
abbrev main_call3_v3 : Ref sig .tc := ⟨.hbm, 85, rfl⟩
abbrev main_call3_cst_0 : Ref sig .tc := ⟨.hbm, 86, rfl⟩
abbrev main_call3_v4 : Ref sig .tc := ⟨.hbm, 87, rfl⟩
abbrev main_call3_v5 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst_3 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x1_S1_d0 : S50000x1.ReducesTo [0] S1
  h_S_ : 0 < S_.numel
  bcast_S1_S1x1_1 : S1.BroadcastsInDim S1x1 (![1] : Fin 1 → Fin S1x1.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x64_S800000x64_1_0_0_1_n_n_wf : DotDims.WF S800000x128 S128x64 S800000x64 [1] [0] [0] [1] [] []
  dot_S800000x64_S64x1_S800000x1_1_0_0_1_n_n_wf : DotDims.WF S800000x64 S64x1 S800000x1 [1] [0] [0] [1] [] []
  scatter_S50000x3_S800000x1_S800000x3_1_0_0_1_wf : ScatterDims.WF S50000x3 S800000x1 S800000x3 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.KernelTake.lean ====
/-
  The kernel program's row gather as one function of a node matrix and a vector of positions: a negative position
  counts from the end (50000 is added), the row at the resulting number is read (the read itself clamps the number into
  the matrix), and the row is replaced by a not-a-number filling unless the number lies in 0 … 49999.
-/
import proofs.«424193_j12438225289736_1_alg».proof.KernelIdeal

noncomputable section

namespace Cert.KernelIdeal

open Idealize.ShloMosaic

variable {F : FTy → Type} [FloatOps F] [hF : Facts₀]

/-- The positions with the negative ones counted from the end, as an [800000 × 1] column. -/
def wrapCol (idx : IVec S800000 32) : IVec S800000x1 32 :=
  broadcastInDim S800000x1 ![0] Facts₀.bcast_S800000_S800000x1_0
    (select (cmpi .slt idx (broadcastInDim S800000 ![] Facts₀.bcast_S_S800000 (constantI S_ 32 0#32)))
      (addi idx (broadcastInDim S800000 ![] Facts₀.bcast_S_S800000 (constantI S_ 32 50000#32))) idx)

/-- Which rows keep what was read: those whose row number lies in 0 … 49999. -/
def inRange (w : IVec S800000x1 32) : IVec S800000 1 :=
  Host.reduce IntOp.andi
    (andi (cmpi .sge w (broadcastInDim S800000x1 ![] Facts₀.bcast_S_S800000x1 (constantI S_ 32 0#32)))
      (cmpi .sle w (broadcastInDim S800000x1 ![0, 1] Facts₀.bcast_S1x1_S800000x1_0_1
        (broadcastInDim S1x1 ![1] Facts₀.bcast_S1_S1x1_1 (constantI S1 32 49999#32)))))
    (constantI S_ 1 1#1) Facts₀.reducesTo_S800000x1_S800000_d1 Facts₀.h_S_

/-- The gathered rows: row e is the matrix's row at position e's number where that is in range, a filling elsewhere. -/
def takeRows (x : FVec F S50000x128 .f32) (idx : IVec S800000 32) : FVec F S800000x128 .f32 :=
  select (broadcastInDim S800000x128 ![0] Facts₀.bcast_S800000_S800000x128_0 (inRange (wrapCol idx)))
    (Host.gather gather_S50000x128_S800000x1_S800000x128_1_0_n_n_0_1_1128 x (wrapCol idx))
    (broadcastInDim S800000x128 ![] Facts₀.bcast_S_S800000x128 (constant S_ .f32 0x7FC00000#32))

end Cert.KernelIdeal

end
-- ==== Proof.HostGlue.lean ====
/-
  The kernel program's host operations around its two kernel regions, read as values.

  Before the first region two bias vectors are laid out as one-row matrices.  Between the regions the node matrix's rows
  are gathered at the source and at the target positions, the two gathered matrices are put side by side, and two more
  bias vectors are laid out as rows.  After the second region its output's rows are added into a zero matrix at the source
  positions.  No operation and no region writes an argument array.
-/
import proofs.«424193_j12438225289736_1_alg».proof.Proof.Gen.KernelIdeal.Frame
import proofs.«424193_j12438225289736_1_alg».proof.Proof.KernelTake
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]

/-! ## Each stretch of host operations, from any contents -/

section Stretches

variable (W : Valuation τ sig (Elt F))

/-- The buffers each stretch writes. -/
abbrev writes0 : List (Ref sig .tc) := [main_v0, main_v1]
abbrev writes1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v3]
abbrev writes1_1 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v4]
abbrev writes1_2 : List (Ref sig .tc) := [main_v5, main_v6, main_v7]
abbrev writes2 : List (Ref sig .tc) := [main_cst, main_v9, main_v10, main_v11]

/-- The stretch `hostOps0` keeps every buffer it does not write. -/
theorem keep0 (b : Ref sig .tc) (hb : b ∉ writes0) :
    StableHlo.after (hostOps0 (F := F)) W (Proc.devRef .tc b) = W (Proc.devRef .tc b) :=
  StableHlo.after_of_forall_not_mem _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => hb (by subst h; decide))))

/-- The stretch `hostOps1` keeps every buffer it does not write. -/
theorem keep1 (b : Ref sig .tc) (hb : b ∉ writes1) :
    StableHlo.after (hostOps1 (F := F)) W (Proc.devRef .tc b) = W (Proc.devRef .tc b) :=
  StableHlo.after_of_forall_not_mem _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => hb (by subst h; decide))))

/-- The stretch `hostOps1_1` keeps every buffer it does not write. -/
theorem keep1_1 (b : Ref sig .tc) (hb : b ∉ writes1_1) :
    StableHlo.after (hostOps1_1 (F := F)) W (Proc.devRef .tc b) = W (Proc.devRef .tc b) :=
  StableHlo.after_of_forall_not_mem _ _ (List.forall_iff_forall_mem.mp (by
    simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => hb (by subst h; decide))))

/-- The stretch `hostOps1_2` keeps every buffer it does not write. -/
theorem keep1_2 (b : Ref sig .tc) (hb : b ∉ writes1_2) :
    StableHlo.after (hostOps1_2 (F := F)) W (Proc.devRef .tc b) = W (Proc.devRef .tc b) :=
  StableHlo.after_of_forall_not_mem _ _ (List.forall_iff_forall_mem.mp (by
    simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => hb (by subst h; decide))))

/-- The stretch `hostOps2` keeps every buffer it does not write. -/
theorem keep2 (b : Ref sig .tc) (hb : b ∉ writes2) :
    StableHlo.after (hostOps2 (F := F)) W (Proc.devRef .tc b) = W (Proc.devRef .tc b) :=
  StableHlo.after_of_forall_not_mem _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun h => hb (by subst h; decide))))

/-- The first stretch lays the first bias vector out as a [1 × 128] row … -/
theorem s0_v0 : StableHlo.after (hostOps0 (F := F)) W (Proc.devRef .tc main_v0)
    = shapeCast S1x128 (W (Proc.devRef .tc main_arg6)) Facts₀.shapeCasts_S128_S1x128 := by
  after_results <;> rfl
/-- … and the second as a [1 × 64] row. -/
theorem s0_v1 : StableHlo.after (hostOps0 (F := F)) W (Proc.devRef .tc main_v1)
    = shapeCast S1x64 (W (Proc.devRef .tc main_arg8)) Facts₀.shapeCasts_S64_S1x64 := by
  after_results <;> rfl
set_option maxHeartbeats 8000000 in
/-- The second stretch gathers the node matrix's rows at the source positions. -/
theorem s1_v3 : StableHlo.after (hostOps1 (F := F)) W (Proc.devRef .tc main_v3)
    = takeRows (W (Proc.devRef .tc main_arg0)) (W (Proc.devRef .tc main_arg1)) := by
  after_results
  simp only [TRef.toBuf, TRef.ofBuf, cast_eq]
  rfl
set_option maxHeartbeats 8000000 in
/-- The third gathers them at the target positions. -/
theorem s1_1_v4 : StableHlo.after (hostOps1_1 (F := F)) W (Proc.devRef .tc main_v4)
    = takeRows (W (Proc.devRef .tc main_arg0)) (W (Proc.devRef .tc main_arg2)) := by
  after_results
  simp only [TRef.toBuf, TRef.ofBuf, cast_eq]
  rfl
/-- The fourth puts the two gathered matrices side by side … -/
theorem s1_2_v5 : StableHlo.after (hostOps1_2 (F := F)) W (Proc.devRef .tc main_v5)
    = concatenate S800000x256 1 [⟨S800000x128, W (Proc.devRef .tc main_v3)⟩, ⟨S800000x128, W (Proc.devRef .tc main_v4)⟩]
        Facts₀.concatenates_S800000x128_S800000x128_S800000x256_d1 := by
  after_results <;> rfl
/-- … and lays the other two bias vectors out as rows. -/
theorem s1_2_v6 : StableHlo.after (hostOps1_2 (F := F)) W (Proc.devRef .tc main_v6)
    = shapeCast S1x128 (W (Proc.devRef .tc main_arg11)) Facts₀.shapeCasts_S128_S1x128 := by
  after_results <;> rfl
theorem s1_2_v7 : StableHlo.after (hostOps1_2 (F := F)) W (Proc.devRef .tc main_v7)
    = shapeCast S1x64 (W (Proc.devRef .tc main_arg13)) Facts₀.shapeCasts_S64_S1x64 := by
  after_results <;> rfl
/-- The last stretch adds the second region's output rows into a zero matrix at the source positions. -/
theorem s2_v11 : StableHlo.after (hostOps2 (F := F)) W (Proc.devRef .tc main_v11)
    = Host.scatterAdd scatter_S50000x3_S800000x1_S800000x3_1_0_0_1
        (broadcastInDim S50000x3 ![] Facts₀.bcast_S_S50000x3 (constant S_ .f32 0x00000000#32))
        (broadcastInDim S800000x1 ![0] Facts₀.bcast_S800000_S800000x1_0 (W (Proc.devRef .tc main_arg1)))
        (W (Proc.devRef .tc main_v8)) := by
  after_results <;> rfl

end Stretches

/-! ## The contents at each boundary -/

section Boundaries

variable (m : (ℓ : Loc nD τ sig) → Buf (Elt F) ℓ) (ρ : Dev nD → PrngReg)

/-- After the first stretch a buffer it does not write holds what the launch memory holds. -/
theorem W1_keep (c : Dev nD) (b : Ref sig .tc) (hb : b ∉ writes0) :
    W1 m ρ c (Proc.devRef .tc b) = m ((c : Thread nD τ).loc b) :=
  keep0 (W0 m ρ c) b hb

/-- The first region leaves a buffer that is none of its arrays as it found it. -/
theorem W2_keep (c : Dev nD) (b : Ref sig .tc) (hne : ∀ w, Pipeline.arrRef spec0 w ≠ b) (hb : b ∉ writes0) :
    W2 m ρ c (Proc.devRef .tc b) = m ((c : Thread nD τ).loc b) :=
  (W2_of_ne m ρ c b hne).trans (W1_keep m ρ c b hb)

/-- The first region leaves its input array, the node matrix, as it found it. -/
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans
    (W1_keep m ρ c main_arg0 (by decide))

theorem W3_keep (c : Dev nD) (b : Ref sig .tc) (h1 : b ∉ writes1) (hne : ∀ w, Pipeline.arrRef spec0 w ≠ b) (hb : b ∉ writes0) :
    W3 m ρ c (Proc.devRef .tc b) = m ((c : Thread nD τ).loc b) :=
  (keep1 (W2 m ρ c) b h1).trans (W2_keep m ρ c b hne hb)

theorem W3_arg0 (c : Dev nD) : W3 m ρ c (Proc.devRef .tc main_arg0) = m ((c : Thread nD τ).loc main_arg0) :=
  (keep1 (W2 m ρ c) main_arg0 (by decide)).trans (W2_arg0 m ρ c)

theorem W4_keep (c : Dev nD) (b : Ref sig .tc) (h11 : b ∉ writes1_1) (h1 : b ∉ writes1) (hne : ∀ w, Pipeline.arrRef spec0 w ≠ b)
    (hb : b ∉ writes0) : W4 m ρ c (Proc.devRef .tc b) = m ((c : Thread nD τ).loc b) :=
  (keep1_1 (W3 m ρ c) b h11).trans (W3_keep m ρ c b h1 hne hb)

theorem W5_keep (c : Dev nD) (b : Ref sig .tc) (h12 : b ∉ writes1_2) (h11 : b ∉ writes1_1) (h1 : b ∉ writes1)
    (hne : ∀ w, Pipeline.arrRef spec0 w ≠ b) (hb : b ∉ writes0) : W5 m ρ c (Proc.devRef .tc b) = m ((c : Thread nD τ).loc b) :=
  (keep1_2 (W4 m ρ c) b h12).trans (W4_keep m ρ c b h11 h1 hne hb)

/-! ### What the first region finds -/

theorem V1_arg0 (c : Dev nD) : V1 m ρ c main_arg0 = m ((c : Thread nD τ).loc main_arg0) := W1_keep m ρ c main_arg0 (by decide)
theorem V1_arg5 (c : Dev nD) : V1 m ρ c main_arg5 = m ((c : Thread nD τ).loc main_arg5) := W1_keep m ρ c main_arg5 (by decide)
theorem V1_arg7 (c : Dev nD) : V1 m ρ c main_arg7 = m ((c : Thread nD τ).loc main_arg7) := W1_keep m ρ c main_arg7 (by decide)
theorem V1_arg9 (c : Dev nD) : V1 m ρ c main_arg9 = m ((c : Thread nD τ).loc main_arg9) := W1_keep m ρ c main_arg9 (by decide)
/-- The first layer's bias as a one-row matrix. -/
theorem V1_v0 (c : Dev nD) : V1 m ρ c main_v0 = shapeCast S1x128 (m ((c : Thread nD τ).loc main_arg6)) Facts₀.shapeCasts_S128_S1x128 :=
  s0_v0 (W0 m ρ c)
/-- The second layer's bias as a one-row matrix. -/
theorem V1_v1 (c : Dev nD) : V1 m ρ c main_v1 = shapeCast S1x64 (m ((c : Thread nD τ).loc main_arg8)) Facts₀.shapeCasts_S64_S1x64 :=
  s0_v1 (W0 m ρ c)

/-! ### The first result -/

/-- The first result buffer ends at what the first region's output array holds when that region ends: nothing after it writes it. -/
theorem W7_v2 (c : Dev nD) : W7 m ρ c (Proc.devRef .tc main_v2) = (dat0 (V1 m ρ) c).arrAt 6 cfg0.N :=
  (keep2 (W6 m ρ c) main_v2 (by decide)).trans ((W6_of_ne m ρ c main_v2 (by decide)).trans
    ((keep1_2 (W4 m ρ c) main_v2 (by decide)).trans ((keep1_1 (W3 m ρ c) main_v2 (by decide)).trans
      ((keep1 (W2 m ρ c) main_v2 (by decide)).trans (W2_arr m ρ c 6)))))

/-! ### What the second region finds -/

/-- The rows gathered at the source positions. -/
theorem W4_v3 (c : Dev nD) : W4 m ρ c (Proc.devRef .tc main_v3)
    = takeRows (m ((c : Thread nD τ).loc main_arg0)) (m ((c : Thread nD τ).loc main_arg1)) :=
  (keep1_1 (W3 m ρ c) main_v3 (by decide)).trans ((s1_v3 (W2 m ρ c)).trans
    (congrArg₂ takeRows (W2_arg0 m ρ c) (W2_keep m ρ c main_arg1 (by decide) (by decide))))

/-- The rows gathered at the target positions. -/
theorem W4_v4 (c : Dev nD) : W4 m ρ c (Proc.devRef .tc main_v4)
    = takeRows (m ((c : Thread nD τ).loc main_arg0)) (m ((c : Thread nD τ).loc main_arg2)) :=
  (s1_1_v4 (W3 m ρ c)).trans
    (congrArg₂ takeRows (W3_arg0 m ρ c) (W3_keep m ρ c main_arg2 (by decide) (by decide) (by decide)))

/-- The edge-input matrix: the two gathered matrices side by side. -/
theorem V5_v5 (c : Dev nD) : V5 m ρ c main_v5
    = concatenate S800000x256 1
        [⟨S800000x128, takeRows (m ((c : Thread nD τ).loc main_arg0)) (m ((c : Thread nD τ).loc main_arg1))⟩,
         ⟨S800000x128, takeRows (m ((c : Thread nD τ).loc main_arg0)) (m ((c : Thread nD τ).loc main_arg2))⟩]
        Facts₀.concatenates_S800000x128_S800000x128_S800000x256_d1 := by
  refine (s1_2_v5 (W4 m ρ c)).trans ?_
  rw [W4_v3 m ρ c, W4_v4 m ρ c]

theorem V5_arg3 (c : Dev nD) : V5 m ρ c main_arg3 = m ((c : Thread nD τ).loc main_arg3) :=
  W5_keep m ρ c main_arg3 (by decide) (by decide) (by decide) (by decide) (by decide)
theorem V5_arg10 (c : Dev nD) : V5 m ρ c main_arg10 = m ((c : Thread nD τ).loc main_arg10) :=
  W5_keep m ρ c main_arg10 (by decide) (by decide) (by decide) (by decide) (by decide)
theorem V5_arg12 (c : Dev nD) : V5 m ρ c main_arg12 = m ((c : Thread nD τ).loc main_arg12) :=
  W5_keep m ρ c main_arg12 (by decide) (by decide) (by decide) (by decide) (by decide)
theorem V5_arg14 (c : Dev nD) : V5 m ρ c main_arg14 = m ((c : Thread nD τ).loc main_arg14) :=
  W5_keep m ρ c main_arg14 (by decide) (by decide) (by decide) (by decide) (by decide)
/-- The edge perceptron's first bias as a one-row matrix. -/
theorem V5_v6 (c : Dev nD) : V5 m ρ c main_v6 = shapeCast S1x128 (m ((c : Thread nD τ).loc main_arg11)) Facts₀.shapeCasts_S128_S1x128 :=
  (s1_2_v6 (W4 m ρ c)).trans
    (congrArg (fun v => shapeCast S1x128 v Facts₀.shapeCasts_S128_S1x128) (W4_keep m ρ c main_arg11 (by decide) (by decide) (by decide) (by decide)))
/-- Its second bias as a one-row matrix. -/
theorem V5_v7 (c : Dev nD) : V5 m ρ c main_v7 = shapeCast S1x64 (m ((c : Thread nD τ).loc main_arg13)) Facts₀.shapeCasts_S64_S1x64 :=
  (s1_2_v7 (W4 m ρ c)).trans
    (congrArg (fun v => shapeCast S1x64 v Facts₀.shapeCasts_S64_S1x64) (W4_keep m ρ c main_arg13 (by decide) (by decide) (by decide) (by decide)))

/-! ### The second result -/

/-- The second result buffer ends at the second region's output rows added into a zero matrix at the source positions. -/
theorem W7_v11 (c : Dev nD) : W7 m ρ c (Proc.devRef .tc main_v11)
    = Host.scatterAdd scatter_S50000x3_S800000x1_S800000x3_1_0_0_1
        (broadcastInDim S50000x3 ![] Facts₀.bcast_S_S50000x3 (constant S_ .f32 0x00000000#32))
        (broadcastInDim S800000x1 ![0] Facts₀.bcast_S800000_S800000x1_0 (m ((c : Thread nD τ).loc main_arg1)))
        ((dat1 (V5 m ρ) c).arrAt 7 cfg1.N) := by
  refine (s2_v11 (W6 m ρ c)).trans ?_
  rw [(W6_of_ne m ρ c main_arg1 (by decide)).trans (W5_keep m ρ c main_arg1 (by decide) (by decide) (by decide) (by decide) (by decide)),
    (W6_arr m ρ c 7 : W6 m ρ c (Proc.devRef .tc main_v8) = _)]

end Boundaries

end Cert.KernelIdeal.Glue

end
-- ==== Proof.Spec.lean ====
/-
  What both programs compute, over the extended reals.

  A node's embedding (a row of 128 numbers) goes through a three-layer perceptron: an affine layer, the gate
  z ↦ z · σ(z) with σ the logistic function 1 / (1 + e^(−z)), a second affine layer and gate, and a last layer
  without bias onto one number.  The first result is the sum of that number over all 50000 nodes.

  An edge's input is a row of 256 numbers (the embeddings of its two end nodes side by side); the same kind of
  perceptron gives one number per edge, which scales the edge's 3-vector; the second result adds, for every node n,
  the scaled vectors of the edges whose source position, read as a signed number, is n.
-/
import Idealize.ShloMosaic.PureOps.Ideal
import Idealize.ShloMosaic.Lib.ValueIdx

noncomputable section

open scoped BigOperators

namespace Cert.Spec

open Idealize.ShloMosaic Idealize.ShloMosaic.ValueIdx

/-- The gate z ↦ z · σ(z), σ the logistic function. -/
def silu (z : EReal) : EReal := z * Ideal.logistic z

/-- Unit j of an affine layer: the weighted sum of the inputs plus the unit's bias. -/
def affine {n h : ℕ} (x : Fin n → EReal) (W : Fin n → Fin h → EReal) (b : Fin h → EReal) (j : Fin h) : EReal :=
  (∑ i : Fin n, x i * W i j) + b j

/-- The three-layer perceptron with one output: two gated affine layers, then a weighted sum without bias. -/
def mlp {n h₁ h₂ : ℕ} (x : Fin n → EReal) (W₁ : Fin n → Fin h₁ → EReal) (b₁ : Fin h₁ → EReal)
    (W₂ : Fin h₁ → Fin h₂ → EReal) (b₂ : Fin h₂ → EReal) (W₃ : Fin h₂ → EReal) : EReal :=
  ∑ k : Fin h₂, silu (affine (fun j => silu (affine x W₁ b₁ j)) W₂ b₂ k) * W₃ k

/-- A matrix as a function of (row, column). -/
abbrev mat {R C : ℕ} (A : (⟨2, ![R, C]⟩ : Shape).Idx → EReal) : Fin R → Fin C → EReal := fun i j => A (ix2 i j)
/-- Row r of a matrix. -/
abbrev row {R C : ℕ} (A : (⟨2, ![R, C]⟩ : Shape).Idx → EReal) (r : Fin R) : Fin C → EReal := fun i => A (ix2 r i)
/-- The one row of a [1 × C] matrix. -/
abbrev row0 {C : ℕ} (B : (⟨2, ![1, C]⟩ : Shape).Idx → EReal) : Fin C → EReal := fun j => B (ix2 0 j)
/-- The one column of an [R × 1] matrix. -/
abbrev col0 {R : ℕ} (W : (⟨2, ![R, 1]⟩ : Shape).Idx → EReal) : Fin R → EReal := fun k => W (ix2 k 0)
/-- A vector as a function of its position. -/
abbrev vec {n : ℕ} (b : (⟨1, ![n]⟩ : Shape).Idx → EReal) : Fin n → EReal := fun j => b (ix1 j)

/-- The first result: the perceptron's output summed over all nodes. -/
def propSum (X : (⟨2, ![50000, 128]⟩ : Shape).Idx → EReal) (W₁ : (⟨2, ![128, 128]⟩ : Shape).Idx → EReal) (b₁ : Fin 128 → EReal)
    (W₂ : (⟨2, ![128, 64]⟩ : Shape).Idx → EReal) (b₂ : Fin 64 → EReal) (W₃ : (⟨2, ![64, 1]⟩ : Shape).Idx → EReal) : EReal :=
  ∑ r : Fin 50000, mlp (row X r) (mat W₁) b₁ (mat W₂) b₂ (col0 W₃)

/-- Edge e's scaled vector, component d: the perceptron's output on the edge's input row times the edge vector's component. -/
def edgeForce (E : (⟨2, ![800000, 256]⟩ : Shape).Idx → EReal) (W₁ : (⟨2, ![256, 128]⟩ : Shape).Idx → EReal) (b₁ : Fin 128 → EReal)
    (W₂ : (⟨2, ![128, 64]⟩ : Shape).Idx → EReal) (b₂ : Fin 64 → EReal) (W₃ : (⟨2, ![64, 1]⟩ : Shape).Idx → EReal)
    (ev : (⟨2, ![800000, 3]⟩ : Shape).Idx → EReal) (e : Fin 800000) (d : Fin 3) : EReal :=
  mlp (row E e) (mat W₁) b₁ (mat W₂) b₂ (col0 W₃) * ev (ix2 e d)

/-- The second result at (n, d): the sum of the scaled vectors' component d over the edges whose source position, read
    signed, is n. -/
def nodeForce (src : (⟨1, ![800000]⟩ : Shape).Idx → BitVec 32) (E : (⟨2, ![800000, 256]⟩ : Shape).Idx → EReal)
    (W₁ : (⟨2, ![256, 128]⟩ : Shape).Idx → EReal) (b₁ : Fin 128 → EReal)
    (W₂ : (⟨2, ![128, 64]⟩ : Shape).Idx → EReal) (b₂ : Fin 64 → EReal) (W₃ : (⟨2, ![64, 1]⟩ : Shape).Idx → EReal)
    (ev : (⟨2, ![800000, 3]⟩ : Shape).Idx → EReal) (n : Fin 50000) (d : Fin 3) : EReal :=
  ∑ e ∈ Finset.univ.filter (fun e : Fin 800000 => (src (ix1 e)).toInt = (n.val : ℤ)), edgeForce E W₁ b₁ W₂ b₂ W₃ ev e d

/-- The second result at node n depends on the edge inputs only through the rows of the edges that land on n. -/
theorem nodeForce_congr (src : (⟨1, ![800000]⟩ : Shape).Idx → BitVec 32) (E E' : (⟨2, ![800000, 256]⟩ : Shape).Idx → EReal)
    (W₁ : (⟨2, ![256, 128]⟩ : Shape).Idx → EReal) (b₁ : Fin 128 → EReal)
    (W₂ : (⟨2, ![128, 64]⟩ : Shape).Idx → EReal) (b₂ : Fin 64 → EReal) (W₃ : (⟨2, ![64, 1]⟩ : Shape).Idx → EReal)
    (ev : (⟨2, ![800000, 3]⟩ : Shape).Idx → EReal) (n : Fin 50000) (d : Fin 3)
    (h : ∀ e : Fin 800000, (src (ix1 e)).toInt = (n.val : ℤ) → ∀ i : Fin 256, E (ix2 e i) = E' (ix2 e i)) :
    nodeForce src E W₁ b₁ W₂ b₂ W₃ ev n d = nodeForce src E' W₁ b₁ W₂ b₂ W₃ ev n d := by
  unfold nodeForce
  refine Finset.sum_congr rfl fun e he => ?_
  unfold edgeForce
  have hrow : row E e = row E' e := funext fun i => h e (Finset.mem_filter.1 he).2 i
  rw [hrow]

end Cert.Spec

end
-- ==== Proof.LibDot.lean ====
/-
  A plain matrix product read at one entry, for any extents: when the left operand's second axis is contracted
  against the right operand's first and nothing is batched, the contraction sum at (r, c) is the sum over the shared
  extent of left (r, i) times right (i, c).

  The contraction index of such a product has one axis, of the shared extent K, so it is a number below K; the left
  operand's index at result index (r, c) and contraction position i is (r, i), the right operand's is (i, c). The sum
  over the contraction index is re-indexed through that identification.
-/
import Idealize.ShloMosaic.PureOps.Ideal.Laws
import Idealize.ShloMosaic.Lib.ValueIdx

noncomputable section

open scoped BigOperators

namespace Cert.LibDot

open Idealize.ShloMosaic Idealize.ShloMosaic.ValueIdx

/-- The dimension numbers of a plain product (contract the left operand's axis 1 against the right operand's axis 0, no
    batch axes), over any proof that they are well formed. -/
abbrev plainDims {R K C : ℕ} (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ := ⟨[1], [0], [0], [1], [], [], wf⟩

section
variable {R K C : ℕ} (wf : DotDims.WF ⟨2, ![R, K]⟩ ⟨2, ![K, C]⟩ ⟨2, ![R, C]⟩ [1] [0] [0] [1] [] [])

/-- On its row axis the left operand reads the result index's row. -/
theorem lhs_axis0 (j : (⟨2, ![R, C]⟩ : Shape).Idx) (q : (plainDims wf).contr.Idx) :
    ((plainDims wf).lhsIdx j q 0).val = (j 0).val := by
  unfold DotDims.lhsIdx
  rw [dif_neg (show ¬ (0 : Fin (⟨2, ![R, K]⟩ : Shape).rank) ∈ (plainDims wf).lhsBatch from List.not_mem_nil),
    dif_pos (show (0 : Fin (⟨2, ![R, K]⟩ : Shape).rank) ∈ (plainDims wf).lhsNonContracting from List.mem_singleton.mpr rfl)]
  rfl

/-- On its column axis the right operand reads the result index's column. -/
theorem rhs_axis1 (j : (⟨2, ![R, C]⟩ : Shape).Idx) (q : (plainDims wf).contr.Idx) :
    ((plainDims wf).rhsIdx j q 1).val = (j 1).val := by
  unfold DotDims.rhsIdx
  rw [dif_neg (show ¬ (1 : Fin (⟨2, ![K, C]⟩ : Shape).rank) ∈ (plainDims wf).rhsBatch from List.not_mem_nil),
    dif_pos (show (1 : Fin (⟨2, ![K, C]⟩ : Shape).rank) ∈ (plainDims wf).rhsNonContracting from List.mem_singleton.mpr rfl)]
  rfl

/-- The contraction sum of the plain dimension numbers at entry (r, c): the contraction index is re-indexed by its one
    coordinate, and at coordinate i the two operand indices are (r, i) and (i, c), axis by axis. -/
theorem contr_sum_plainDims (lhs : (⟨2, ![R, K]⟩ : Shape).Idx → EReal) (rhs : (⟨2, ![K, C]⟩ : Shape).Idx → EReal)
    (r : Fin R) (c : Fin C) :
    (∑ k : (plainDims wf).contr.Idx, lhs ((plainDims wf).lhsIdx (ix2 r c) k) * rhs ((plainDims wf).rhsIdx (ix2 r c) k))
      = ∑ i : Fin K, lhs (ix2 r i) * rhs (ix2 i c) := by
  have hr : (plainDims wf).contr.rank = 1 := rfl
  have hs : (plainDims wf).contr.size ⟨0, by omega⟩ = K := rfl
  rw [← Equiv.sum_comp (contrEquiv1 (plainDims wf) K hr hs).symm]
  refine Finset.sum_congr rfl fun k _ => ?_
  have hk := contrEquiv1_symm_val (plainDims wf) K hr hs k
  have el : (plainDims wf).lhsIdx (ix2 r c) ((contrEquiv1 (plainDims wf) K hr hs).symm k) = ix2 r k :=
    funext fun a => Fin.ext (by
      match a with
      | ⟨0, _⟩ => exact lhs_axis0 wf _ _
      | ⟨1, _⟩ => exact ((plainDims wf).lhsIdx_val_of_single rfl _ _).trans hk)
  have er : (plainDims wf).rhsIdx (ix2 r c) ((contrEquiv1 (plainDims wf) K hr hs).symm k) = ix2 k c :=
    funext fun a => Fin.ext (by
      match a with
      | ⟨0, _⟩ => exact ((plainDims wf).rhsIdx_val_of_single rfl _ _).trans hk
      | ⟨1, _⟩ => exact rhs_axis1 wf _ _)
  rw [el, er]

end

/-- The contraction sum of a plain [R × K] · [K × C] product at entry (r, c). -/
theorem contr_sum_plain {R K C : ℕ} (d : DotDims ⟨2, ![R, K]⟩ ⟨2, ![K, C]⟩ ⟨2, ![R, C]⟩)
    (hlc : d.lhsContracting = [1]) (hrc : d.rhsContracting = [0]) (hln : d.lhsNonContracting = [0])
    (hrn : d.rhsNonContracting = [1]) (hlb : d.lhsBatch = []) (hrb : d.rhsBatch = [])
    (lhs : (⟨2, ![R, K]⟩ : Shape).Idx → EReal) (rhs : (⟨2, ![K, C]⟩ : Shape).Idx → EReal) (r : Fin R) (c : Fin C) :
    (∑ k : d.contr.Idx, lhs (d.lhsIdx (ix2 r c) k) * rhs (d.rhsIdx (ix2 r c) k))
      = ∑ i : Fin K, lhs (ix2 r i) * rhs (ix2 i c) := by
  obtain ⟨lc, rc, ln, rn, lb, rb, wf⟩ := d
  dsimp only at hlc hrc hln hrn hlb hrb
  subst hlc hrc hln hrn hlb hrb
  exact contr_sum_plainDims wf lhs rhs r c

/-- A matrix-unit product of the plain kind into a zero accumulator, at the exact instance, read at entry (r, c). -/
theorem matmul_zero_plain {R K C : ℕ} {φ₁ φ₂ : FTy} (d : DotDims ⟨2, ![R, K]⟩ ⟨2, ![K, C]⟩ ⟨2, ![R, C]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![R, K]⟩ φ₁) (rhs : FVec Ideal ⟨2, ![K, C]⟩ φ₂) (r : Fin R) (c : Fin C) :
    FloatOps.matmul d prec lhs rhs (constant ⟨2, ![R, C]⟩ .f32 0x00000000#32) (ix2 r c)
      = ∑ i : Fin K, (lhs (ix2 r i) : EReal) * (rhs (ix2 i c) : EReal) := by
  rw [Ideal.matmul_constant_zero_apply]
  exact contr_sum_plain d hlc hrc hln hrn hlb hrb lhs rhs r c

/-- The host's general product of the plain kind, at the exact instance, read at entry (r, c). -/
theorem dotGeneral_plain {R K C : ℕ} {φ₁ φ₂ : FTy} (d : DotDims ⟨2, ![R, K]⟩ ⟨2, ![K, C]⟩ ⟨2, ![R, C]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![R, K]⟩ φ₁) (rhs : FVec Ideal ⟨2, ![K, C]⟩ φ₂) (r : Fin R) (c : Fin C) :
    FloatOps.dotGeneral d prec sched lhs rhs (ix2 r c)
      = ∑ i : Fin K, (lhs (ix2 r i) : EReal) * (rhs (ix2 i c) : EReal) := by
  rw [Ideal.dotGeneral_apply]
  exact contr_sum_plain d hlc hrc hln hrn hlb hrb lhs rhs r c

/-- The same, for the host's general product as a program states it (at the host's own summation schedule). -/
theorem hostDotGeneral_plain {R K C : ℕ} {φ₁ φ₂ : FTy} (d : DotDims ⟨2, ![R, K]⟩ ⟨2, ![K, C]⟩ ⟨2, ![R, C]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![R, K]⟩ φ₁) (rhs : FVec Ideal ⟨2, ![K, C]⟩ φ₂) (r : Fin R) (c : Fin C) :
    Host.dotGeneral d prec lhs rhs (ix2 r c)
      = ∑ i : Fin K, (lhs (ix2 r i) : EReal) * (rhs (ix2 i c) : EReal) :=
  dotGeneral_plain d hlc hrc hln hrn hlb hrb prec .single lhs rhs r c

/-- The three readings above at a result index that is not split into its coordinates: entry j is the sum over the
    shared extent of left (j's row, i) times right (i, j's column). -/
theorem matmul_zero_plain_at {R K C : ℕ} {φ₁ φ₂ : FTy} (d : DotDims ⟨2, ![R, K]⟩ ⟨2, ![K, C]⟩ ⟨2, ![R, C]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![R, K]⟩ φ₁) (rhs : FVec Ideal ⟨2, ![K, C]⟩ φ₂) (j : (⟨2, ![R, C]⟩ : Shape).Idx) :
    FloatOps.matmul d prec lhs rhs (constant ⟨2, ![R, C]⟩ .f32 0x00000000#32) j
      = ∑ i : Fin K, (lhs (ix2 (j 0) i) : EReal) * (rhs (ix2 i (j 1)) : EReal) :=
  (congrArg (FloatOps.matmul d prec lhs rhs (constant ⟨2, ![R, C]⟩ .f32 0x00000000#32)) (eq_ix2 j)).trans
    (matmul_zero_plain d hlc hrc hln hrn hlb hrb prec lhs rhs (j 0) (j 1))

theorem dotGeneral_plain_at {R K C : ℕ} {φ₁ φ₂ : FTy} (d : DotDims ⟨2, ![R, K]⟩ ⟨2, ![K, C]⟩ ⟨2, ![R, C]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral d prec sched lhs rhs j
      = ∑ i : Fin K, (lhs (ix2 (j 0) i) : EReal) * (rhs (ix2 i (j 1)) : EReal) :=
  (congrArg (FloatOps.dotGeneral d prec sched lhs rhs) (eq_ix2 j)).trans
    (dotGeneral_plain d hlc hrc hln hrn hlb hrb prec sched lhs rhs (j 0) (j 1))

theorem hostDotGeneral_plain_at {R K C : ℕ} {φ₁ φ₂ : FTy} (d : DotDims ⟨2, ![R, K]⟩ ⟨2, ![K, C]⟩ ⟨2, ![R, C]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![R, K]⟩ φ₁) (rhs : FVec Ideal ⟨2, ![K, C]⟩ φ₂) (j : (⟨2, ![R, C]⟩ : Shape).Idx) :
    Host.dotGeneral d prec lhs rhs j
      = ∑ i : Fin K, (lhs (ix2 (j 0) i) : EReal) * (rhs (ix2 i (j 1)) : EReal) :=
  dotGeneral_plain_at d hlc hrc hln hrn hlb hrb prec .single lhs rhs j

end Cert.LibDot

end
-- ==== Proof.PropRegion.lean ====
/-
  The first kernel region's result: what its one-entry output array holds when the region ends.

  The body's stored update, read over the extended reals, is the running entry plus the perceptron's outputs summed over
  the 2000 rows of the node block in hand (three plain matrix products into zero accumulators with the gate z ↦ z · σ(z)
  between them, then the sum down the one column).  The first grid point resets the entry to zero before the update, every
  later point updates what the point before left, so after point n the entry is the sum of the block sums of points
  0 … n.  The node block at point t is rows 2000·t … 2000·t + 1999 of the node matrix and the other five blocks are their
  whole arrays, so the 25 block sums together are the sum over all 50000 rows.  The entry is written back to the array
  after the last point only, and that one block is the whole array.
-/
import proofs.«424193_j12438225289736_1_alg».proof.Proof.Gen.KernelIdeal.Frame
import proofs.«424193_j12438225289736_1_alg».proof.Proof.Spec
import proofs.«424193_j12438225289736_1_alg».proof.Proof.LibDot
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.PropRegion

open Cert.KernelIdeal Cert.KernelIdeal.Gen Idealize.ShloMosaic Idealize.ShloMosaic.TcCoe Idealize.ShloMosaic.ValueIdx Idealize.SL.Sem
open Idealize.ShloMosaic.Pipeline (Dat)

/-- A plain matrix product accumulated into the zero array, read at one entry: the sum over the shared extent. -/
theorem mm_apply {R K C : ℕ} {φ₁ φ₂ : FTy} (d : DotDims ⟨2, ![R, K]⟩ ⟨2, ![K, C]⟩ ⟨2, ![R, C]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![R, K]⟩ φ₁) (rhs : FVec Ideal ⟨2, ![K, C]⟩ φ₂) (r : Fin R) (c : Fin C) :
    matmul d none lhs rhs (constant ⟨2, ![R, C]⟩ .f32 0x00000000#32) (ix2 r c)
      = ∑ i : Fin K, lhs (ix2 r i) * rhs (ix2 i c) :=
  (Ideal.matmul_constant_zero_apply d none lhs rhs (ix2 r c)).trans
    (Cert.LibDot.contr_sum_plain d hlc hrc hln hrn hlb hrb lhs rhs r c)

/-- The first layer before its gate: the block's rows times the first weight matrix, plus the bias row. -/
def pre1 (x0 : FVec Ideal S2000x128 .f32) (x1 : FVec Ideal S128x128 .f32) (x2 : FVec Ideal S1x128 .f32) :
    FVec Ideal S2000x128 .f32 :=
  addf (matmul dot_S2000x128_S128x128_S2000x128_1_0_0_1_n_n none (truncf .bf16 x0 (by decide)) (truncf .bf16 x1 (by decide))
      (constant S2000x128 .f32 0x00000000#32))
    (broadcastTo S2000x128 (shapeCast S1x128 x2 (by decide)) (by decide))

/-- The first layer after its gate. -/
def act1 (x0 : FVec Ideal S2000x128 .f32) (x1 : FVec Ideal S128x128 .f32) (x2 : FVec Ideal S1x128 .f32) :
    FVec Ideal S2000x128 .f32 :=
  mulf (pre1 x0 x1 x2) (logistic (pre1 x0 x1 x2))

/-- The second layer before its gate. -/
def pre2 (x0 : FVec Ideal S2000x128 .f32) (x1 : FVec Ideal S128x128 .f32) (x2 : FVec Ideal S1x128 .f32)
    (x3 : FVec Ideal S128x64 .f32) (x4 : FVec Ideal S1x64 .f32) : FVec Ideal S2000x64 .f32 :=
  addf (matmul dot_S2000x128_S128x64_S2000x64_1_0_0_1_n_n none (truncf .bf16 (act1 x0 x1 x2) (by decide)) (truncf .bf16 x3 (by decide))
      (constant S2000x64 .f32 0x00000000#32))
    (broadcastTo S2000x64 (shapeCast S1x64 x4 (by decide)) (by decide))

/-- The second layer after its gate. -/
def act2 (x0 : FVec Ideal S2000x128 .f32) (x1 : FVec Ideal S128x128 .f32) (x2 : FVec Ideal S1x128 .f32)
    (x3 : FVec Ideal S128x64 .f32) (x4 : FVec Ideal S1x64 .f32) : FVec Ideal S2000x64 .f32 :=
  mulf (pre2 x0 x1 x2 x3 x4) (logistic (pre2 x0 x1 x2 x3 x4))

/-- The last layer: one number per row of the block. -/
def outCol (x0 : FVec Ideal S2000x128 .f32) (x1 : FVec Ideal S128x128 .f32) (x2 : FVec Ideal S1x128 .f32)
    (x3 : FVec Ideal S128x64 .f32) (x4 : FVec Ideal S1x64 .f32) (x5 : FVec Ideal S64x1 .f32) : FVec Ideal S2000x1 .f32 :=
  matmul dot_S2000x64_S64x1_S2000x1_1_0_0_1_n_n none (truncf .bf16 (act2 x0 x1 x2 x3 x4) (by decide)) (truncf .bf16 x5 (by decide))
    (constant S2000x1 .f32 0x00000000#32)

/-- The update the body stores is the running entry plus the column's sum over the block's rows. -/
theorem pay2_eq (x0 : FVec Ideal S2000x128 .f32) (x1 : FVec Ideal S128x128 .f32) (x2 : FVec Ideal S1x128 .f32)
    (x3 : FVec Ideal S128x64 .f32) (x4 : FVec Ideal S1x64 .f32) (x5 : FVec Ideal S64x1 .f32) (xo : FVec Ideal S1x1 .f32) :
    k0_pay2 (F := Ideal) x0 x1 x2 x3 x4 x5 xo
      = addf (shapeCast S1x1 xo (by decide))
          (shapeCast S1x1 (multiReduction (F := Ideal) .add [0] S1 (outCol x0 x1 x2 x3 x4 x5) 0x00000000#32 (by decide) (.inl rfl) rfl) (by decide)) := rfl

/-- The first layer before its gate, at row q and unit j: the row's affine image. -/
theorem pre1_apply (x0 : FVec Ideal S2000x128 .f32) (x1 : FVec Ideal S128x128 .f32) (x2 : FVec Ideal S1x128 .f32)
    (q : Fin 2000) (j : Fin 128) :
    pre1 x0 x1 x2 (ix2 q j) = Spec.affine (Spec.row x0 q) (Spec.mat x1) (Spec.row0 x2) j :=
  congrArg₂ (· + ·)
    (mm_apply dot_S2000x128_S128x128_S2000x128_1_0_0_1_n_n rfl rfl rfl rfl rfl rfl
      (truncf .bf16 x0 (by decide)) (truncf .bf16 x1 (by decide)) q j)
    ((broadcastTo_1b_ab_apply (shapeCast S1x128 x2 (by decide)) (by decide) q j).trans
      (congrFun (shapeCast_self x2 (by decide)) (ix2 (0 : Fin 1) j)))

/-- The first layer after its gate, at row q and unit j. -/
theorem act1_apply (x0 : FVec Ideal S2000x128 .f32) (x1 : FVec Ideal S128x128 .f32) (x2 : FVec Ideal S1x128 .f32)
    (q : Fin 2000) (j : Fin 128) :
    act1 x0 x1 x2 (ix2 q j) = Spec.silu (Spec.affine (Spec.row x0 q) (Spec.mat x1) (Spec.row0 x2) j) := by
  show pre1 x0 x1 x2 (ix2 q j) * Ideal.logistic (pre1 x0 x1 x2 (ix2 q j)) = _
  rw [pre1_apply]
  rfl

/-- The second layer before its gate, at row q and unit k. -/
theorem pre2_apply (x0 : FVec Ideal S2000x128 .f32) (x1 : FVec Ideal S128x128 .f32) (x2 : FVec Ideal S1x128 .f32)
    (x3 : FVec Ideal S128x64 .f32) (x4 : FVec Ideal S1x64 .f32) (q : Fin 2000) (k : Fin 64) :
    pre2 x0 x1 x2 x3 x4 (ix2 q k)
      = Spec.affine (fun j => Spec.silu (Spec.affine (Spec.row x0 q) (Spec.mat x1) (Spec.row0 x2) j)) (Spec.mat x3) (Spec.row0 x4) k := by
  refine (congrArg₂ (· + ·)
    (mm_apply dot_S2000x128_S128x64_S2000x64_1_0_0_1_n_n rfl rfl rfl rfl rfl rfl
      (truncf .bf16 (act1 x0 x1 x2) (by decide)) (truncf .bf16 x3 (by decide)) q k)
    ((broadcastTo_1b_ab_apply (shapeCast S1x64 x4 (by decide)) (by decide) q k).trans
      (congrFun (shapeCast_self x4 (by decide)) (ix2 (0 : Fin 1) k)))).trans ?_
  show (∑ j : Fin 128, act1 x0 x1 x2 (ix2 q j) * x3 (ix2 j k)) + x4 (ix2 0 k) = _
  simp only [act1_apply]
  rfl

/-- The second layer after its gate, at row q and unit k. -/
theorem act2_apply (x0 : FVec Ideal S2000x128 .f32) (x1 : FVec Ideal S128x128 .f32) (x2 : FVec Ideal S1x128 .f32)
    (x3 : FVec Ideal S128x64 .f32) (x4 : FVec Ideal S1x64 .f32) (q : Fin 2000) (k : Fin 64) :
    act2 x0 x1 x2 x3 x4 (ix2 q k)
      = Spec.silu (Spec.affine (fun j => Spec.silu (Spec.affine (Spec.row x0 q) (Spec.mat x1) (Spec.row0 x2) j)) (Spec.mat x3) (Spec.row0 x4) k) := by
  show pre2 x0 x1 x2 x3 x4 (ix2 q k) * Ideal.logistic (pre2 x0 x1 x2 x3 x4 (ix2 q k)) = _
  rw [pre2_apply]
  rfl

/-- The last layer at row q: the perceptron's output on that row. -/
theorem outCol_apply (x0 : FVec Ideal S2000x128 .f32) (x1 : FVec Ideal S128x128 .f32) (x2 : FVec Ideal S1x128 .f32)
    (x3 : FVec Ideal S128x64 .f32) (x4 : FVec Ideal S1x64 .f32) (x5 : FVec Ideal S64x1 .f32) (q : Fin 2000) (u : Fin 1) :
    outCol x0 x1 x2 x3 x4 x5 (ix2 q u)
      = Spec.mlp (Spec.row x0 q) (Spec.mat x1) (Spec.row0 x2) (Spec.mat x3) (Spec.row0 x4) (Spec.col0 x5) := by
  obtain rfl : u = 0 := Subsingleton.elim _ _
  refine (mm_apply dot_S2000x64_S64x1_S2000x1_1_0_0_1_n_n rfl rfl rfl rfl rfl rfl
      (truncf .bf16 (act2 x0 x1 x2 x3 x4) (by decide)) (truncf .bf16 x5 (by decide)) q 0).trans ?_
  show (∑ k : Fin 64, act2 x0 x1 x2 x3 x4 (ix2 q k) * x5 (ix2 k 0)) = _
  simp only [act2_apply]
  rfl

/-- The stored update at the one index: the running entry plus the perceptron's outputs summed over the block's rows. -/
theorem pay2_apply (x0 : FVec Ideal S2000x128 .f32) (x1 : FVec Ideal S128x128 .f32) (x2 : FVec Ideal S1x128 .f32)
    (x3 : FVec Ideal S128x64 .f32) (x4 : FVec Ideal S1x64 .f32) (x5 : FVec Ideal S64x1 .f32) (xo : FVec Ideal S1x1 .f32)
    (y : S1x1.Idx) :
    k0_pay2 (F := Ideal) x0 x1 x2 x3 x4 x5 xo y
      = xo y + ∑ q : Fin 2000, Spec.mlp (Spec.row x0 q) (Spec.mat x1) (Spec.row0 x2) (Spec.mat x3) (Spec.row0 x4) (Spec.col0 x5) := by
  obtain ⟨a, b, rfl⟩ : ∃ a b : Fin 1, y = ix2 a b := ⟨y 0, y 1, eq_ix2 y⟩
  refine (congrFun (pay2_eq x0 x1 x2 x3 x4 x5 xo) (ix2 a b)).trans ?_
  refine congrArg₂ (· + ·) (congrFun (shapeCast_self xo (by decide)) (ix2 a b)) ?_
  refine (shapeCast_a_1a_apply _ (by decide) a b).trans ?_
  refine (Ideal.multiReduction_add_single (outCol x0 x1 x2 x3 x4 x5) 0x00000000#32 (by decide) (.inl rfl) rfl (ix1 b)).trans ?_
  refine Finset.sum_congr rfl fun q _ => ?_
  refine (congrArg (outCol x0 x1 x2 x3 x4 x5) (?_ : _ = ix2 q b)).trans (outCol_apply x0 x1 x2 x3 x4 x5 q b)
  funext d
  match d with
  | ⟨0, _⟩ => rfl
  | ⟨1, _⟩ => rfl

/-- The zero offsets of a load or store of a whole buffer. -/
theorem hz : (![0, 0] : Fin 2 → Nat) = fun _ => 0 := funext fun a => by fin_cases a <;> rfl

section Pieces
variable {F : FTy → Type} [FloatOps F]

/-- At a later grid point the body leaves, in the output's buffer holding `xo`, the update computed from the six input
    blocks and `xo`: its one store covers the buffer and its loads read the whole buffers. -/
theorem out_B (c : Dev nD) (i : grid0.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S128x64 .f32) (h4 : a4.IsWhole) (a5 : Memref sig .tc .vmem S1x64 .f32) (h5 : a5.IsWhole)
    (a6 : Memref sig .tc .vmem S64x1 .f32) (h6 : a6.IsWhole) (a7 : Memref sig .tc .vmem S1x1 .f32) (h7 : a7.IsWhole)
    (hc : ¬cond0_0 i) (x0 : Vec F S2000x128 .f32) (x1 : Vec F S128x128 .f32) (x2 : Vec F S1x128 .f32)
    (x3 : Vec F S128x64 .f32) (x4 : Vec F S1x64 .f32) (x5 : Vec F S64x1 .f32) (xo : Vec F S1x1 .f32) :
    out0_B_6 c i a1 h1 a2 h2 a3 h3 a4 h4 a5 h5 a6 h6 a7 h7 hc x0 x1 x2 x3 x4 x5 xo = k0_pay2 x0 x1 x2 x3 x4 x5 xo := by
  unfold out0_B_6
  rw [View.read_writes_eq_canon _ _ _ (cover0_B_6 c i a1 h1 a2 h2 a3 h3 a4 h4 a5 h5 a6 h6 a7 h7 hc x0 x1 x2 x3 x4 x5 xo)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, View.ld_unit_zero (S := S2000x128) hz, View.ld_unit_zero (S := S128x128) hz,
    View.ld_unit_zero (S := S1x128) hz, View.ld_unit_zero (S := S128x64) hz, View.ld_unit_zero (S := S1x64) hz,
    View.ld_unit_zero (S := S64x1) hz, View.ld_unit_zero (S := S1x1) hz]

/-- At the first grid point the body stores the zero entry, reads it back, and leaves the update computed from the six
    input blocks and that zero entry. -/
theorem out_A (c : Dev nD) (i : grid0.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S128x64 .f32) (h4 : a4.IsWhole) (a5 : Memref sig .tc .vmem S1x64 .f32) (h5 : a5.IsWhole)
    (a6 : Memref sig .tc .vmem S64x1 .f32) (h6 : a6.IsWhole) (a7 : Memref sig .tc .vmem S1x1 .f32) (h7 : a7.IsWhole)
    (hc : cond0_0 i) (x0 : Vec F S2000x128 .f32) (x1 : Vec F S128x128 .f32) (x2 : Vec F S1x128 .f32)
    (x3 : Vec F S128x64 .f32) (x4 : Vec F S1x64 .f32) (x5 : Vec F S64x1 .f32) :
    out0_A_6 c i a1 h1 a2 h2 a3 h3 a4 h4 a5 h5 a6 h6 a7 h7 hc x0 x1 x2 x3 x4 x5
      = k0_pay2 x0 x1 x2 x3 x4 x5 (k0_pay1 (F := F)) := by
  unfold out0_A_6
  rw [View.read_writes_eq_canon _ _ _ (cover0_A_6 c i a1 h1 a2 h2 a3 h3 a4 h4 a5 h5 a6 h6 a7 h7 hc x0 x1 x2 x3 x4 x5)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    h6.read_unread, View.ld_unit_zero (S := S2000x128) hz, View.ld_unit_zero (S := S128x128) hz,
    View.ld_unit_zero (S := S1x128) hz, View.ld_unit_zero (S := S128x64) hz, View.ld_unit_zero (S := S1x64) hz,
    View.ld_unit_zero (S := S64x1) hz]

end Pieces

section Run
variable (V : (c : Dev nD) → (b : Ref sig .tc) → Buf (Elt Ideal) ((c : Thread nD τ).loc b))

/-- The node matrix, the three weight matrices and the two bias rows as the region finds them. -/
abbrev Xarr (c : Dev nD) : FVec Ideal S50000x128 .f32 := V c main_arg0
abbrev W1arr (c : Dev nD) : FVec Ideal S128x128 .f32 := V c main_arg5
abbrev B1arr (c : Dev nD) : FVec Ideal S1x128 .f32 := V c main_v0
abbrev W2arr (c : Dev nD) : FVec Ideal S128x64 .f32 := V c main_arg7
abbrev B2arr (c : Dev nD) : FVec Ideal S1x64 .f32 := V c main_v1
abbrev W3arr (c : Dev nD) : FVec Ideal S64x1 .f32 := V c main_arg9

/-- The six input blocks at grid point t. -/
abbrev blk0 (c : Dev nD) (t : Fin cfg0.N) : FVec Ideal S2000x128 .f32 := iblk0 V c 0 t
abbrev blk1 (c : Dev nD) (t : Fin cfg0.N) : FVec Ideal S128x128 .f32 := iblk0 V c 1 t
abbrev blk2 (c : Dev nD) (t : Fin cfg0.N) : FVec Ideal S1x128 .f32 := iblk0 V c 2 t
abbrev blk3 (c : Dev nD) (t : Fin cfg0.N) : FVec Ideal S128x64 .f32 := iblk0 V c 3 t
abbrev blk4 (c : Dev nD) (t : Fin cfg0.N) : FVec Ideal S1x64 .f32 := iblk0 V c 4 t
abbrev blk5 (c : Dev nD) (t : Fin cfg0.N) : FVec Ideal S64x1 .f32 := iblk0 V c 5 t

/-- The node block at grid point t holds rows 2000·t … 2000·t + 1999 of the node matrix. -/
theorem blk0_apply (c : Dev nD) (t : Fin cfg0.N) (q : Fin 2000) (i : Fin 128) (h : 2000 * t.val + q.val < 50000) :
    blk0 V c t (ix2 q i) = Xarr V c (ix2 ⟨2000 * t.val + q.val, h⟩ i) := by
  have hi : win0_0.index t 0 = t.val ∧ win0_0.index t 1 = 0 :=
    (by decide +kernel : ∀ t : Fin grid0.N, win0_0.index t 0 = t.val ∧ win0_0.index t 1 = 0) t
  unfold blk0 iblk0
  rw [View.read_apply]
  show V c main_arg0 _ = V c main_arg0 _
  congr 1
  funext a
  apply Fin.ext
  match a with
  | ⟨0, _⟩ => show win0_0.index t 0 * 2000 + 1 * q.val = 2000 * t.val + q.val; rw [hi.1]; omega
  | ⟨1, _⟩ => show win0_0.index t 1 * 128 + 1 * i.val = i.val; rw [hi.2]; omega

/-- Each weight or bias block is its whole array at every grid point. -/
theorem blk1_eq (c : Dev nD) (t : Fin cfg0.N) : blk1 V c t = W1arr V c := by
  funext j
  unfold blk1 iblk0
  rw [View.read_apply]
  show V c main_arg5 _ = V c main_arg5 j
  congr 1
  funext a
  apply Fin.ext
  match a with
  | ⟨0, _⟩ => show 0 * 128 + 1 * (j 0).val = (j 0).val; omega
  | ⟨1, _⟩ => show 0 * 128 + 1 * (j 1).val = (j 1).val; omega

theorem blk2_eq (c : Dev nD) (t : Fin cfg0.N) : blk2 V c t = B1arr V c := by
  funext j
  unfold blk2 iblk0
  rw [View.read_apply]
  show V c main_v0 _ = V c main_v0 j
  congr 1
  funext a
  apply Fin.ext
  match a with
  | ⟨0, _⟩ => show 0 * 1 + 1 * (j 0).val = (j 0).val; omega
  | ⟨1, _⟩ => show 0 * 128 + 1 * (j 1).val = (j 1).val; omega

theorem blk3_eq (c : Dev nD) (t : Fin cfg0.N) : blk3 V c t = W2arr V c := by
  funext j
  unfold blk3 iblk0
  rw [View.read_apply]
  show V c main_arg7 _ = V c main_arg7 j
  congr 1
  funext a
  apply Fin.ext
  match a with
  | ⟨0, _⟩ => show 0 * 128 + 1 * (j 0).val = (j 0).val; omega
  | ⟨1, _⟩ => show 0 * 64 + 1 * (j 1).val = (j 1).val; omega

theorem blk4_eq (c : Dev nD) (t : Fin cfg0.N) : blk4 V c t = B2arr V c := by
  funext j
  unfold blk4 iblk0
  rw [View.read_apply]
  show V c main_v1 _ = V c main_v1 j
  congr 1
  funext a
  apply Fin.ext
  match a with
  | ⟨0, _⟩ => show 0 * 1 + 1 * (j 0).val = (j 0).val; omega
  | ⟨1, _⟩ => show 0 * 64 + 1 * (j 1).val = (j 1).val; omega

theorem blk5_eq (c : Dev nD) (t : Fin cfg0.N) : blk5 V c t = W3arr V c := by
  funext j
  unfold blk5 iblk0
  rw [View.read_apply]
  show V c main_arg9 _ = V c main_arg9 j
  congr 1
  funext a
  apply Fin.ext
  match a with
  | ⟨0, _⟩ => show 0 * 64 + 1 * (j 0).val = (j 0).val; omega
  | ⟨1, _⟩ => show 0 * 1 + 1 * (j 1).val = (j 1).val; omega

/-- The perceptron's output on row r of the node matrix. -/
def rowOut (c : Dev nD) (r : Fin 50000) : EReal :=
  Spec.mlp (Spec.row (Xarr V c) r) (Spec.mat (W1arr V c)) (Spec.row0 (B1arr V c)) (Spec.mat (W2arr V c))
    (Spec.row0 (B2arr V c)) (Spec.col0 (W3arr V c))

/-- The outputs summed over the 2000 rows of block s (zero past the last block). -/
def blockSum (c : Dev nD) (s : ℕ) : EReal :=
  if h : s < 25 then ∑ q : Fin 2000, rowOut V c ⟨2000 * s + q.val, by have := q.isLt; omega⟩ else 0

/-- At grid point t the stored update is the running entry plus block t's sum. -/
theorem point_sum (c : Dev nD) (t : Fin cfg0.N) (xo : FVec Ideal S1x1 .f32) (y : S1x1.Idx) :
    k0_pay2 (F := Ideal) (blk0 V c t) (blk1 V c t) (blk2 V c t) (blk3 V c t) (blk4 V c t) (blk5 V c t) xo y
      = xo y + blockSum V c t.val := by
  have ht : t.val < 25 := lt_of_lt_of_eq t.isLt (show cfg0.N = 25 from N_0)
  refine (pay2_apply (blk0 V c t) (blk1 V c t) (blk2 V c t) (blk3 V c t) (blk4 V c t) (blk5 V c t) xo y).trans ?_
  rw [blk1_eq, blk2_eq, blk3_eq, blk4_eq, blk5_eq]
  unfold blockSum
  rw [dif_pos ht]
  refine congrArg (xo y + ·) (Finset.sum_congr rfl fun q _ => ?_)
  unfold rowOut
  have hrow : Spec.row (blk0 V c t) q
      = Spec.row (Xarr V c) ⟨2000 * t.val + q.val, by have := q.isLt; omega⟩ :=
    funext fun i => blk0_apply V c t q i _
  rw [hrow]

/-- After the first grid point the output's buffer holds block 0's sum: the reset entry is zero. -/
theorem outsAt_zero (c : Dev nD) (hn : 0 < cfg0.N) (y : S1x1.Idx) :
    (outsAt0 V c 0 hn : FVec Ideal S1x1 .f32) y = blockSum V c 0 := by
  refine (congrFun ((outsAt0_A V c ⟨0, hn⟩ rfl).trans
    (out_A (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) (ms0_4 ⟨0, hn⟩) (hs0_4 ⟨0, hn⟩)
      (ms0_5 ⟨0, hn⟩) (hs0_5 ⟨0, hn⟩) (ms0_6 ⟨0, hn⟩) (hs0_6 ⟨0, hn⟩) ((hcond0_0 ⟨0, hn⟩).mpr rfl)
      (blk0 V c ⟨0, hn⟩) (blk1 V c ⟨0, hn⟩) (blk2 V c ⟨0, hn⟩) (blk3 V c ⟨0, hn⟩) (blk4 V c ⟨0, hn⟩)
      (blk5 V c ⟨0, hn⟩))) y).trans ?_
  refine (point_sum V c ⟨0, hn⟩ (k0_pay1 (F := Ideal)) y).trans ?_
  show Ideal.ofBits .f32 0x00000000#32 + blockSum V c 0 = blockSum V c 0
  rw [Ideal.ofBits_zero_f32, zero_add]

/-- After a later grid point the buffer holds what the point before left plus that point's block sum. -/
theorem outsAt_succ (c : Dev nD) (n : ℕ) (hn : n + 1 < cfg0.N) (y : S1x1.Idx) :
    (outsAt0 V c (n + 1) hn : FVec Ideal S1x1 .f32) y
      = (outsAt0 V c n (Nat.lt_of_succ_lt hn) : FVec Ideal S1x1 .f32) y + blockSum V c (n + 1) := by
  have hN : cfg0.N = 25 := N_0
  have hB : ¬(⟨n + 1, hn⟩ : Fin cfg0.N).val % 25 = 0 := by dsimp only; omega
  refine (congrFun ((outsAt0_B V c ⟨n + 1, hn⟩ hB).trans
    (out_B (F := Ideal) c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
      (ms0_5 ⟨n + 1, hn⟩) (hs0_5 ⟨n + 1, hn⟩) (ms0_6 ⟨n + 1, hn⟩) (hs0_6 ⟨n + 1, hn⟩) (fun h => hB ((hcond0_0 ⟨n + 1, hn⟩).mp h))
      (blk0 V c ⟨n + 1, hn⟩) (blk1 V c ⟨n + 1, hn⟩) (blk2 V c ⟨n + 1, hn⟩) (blk3 V c ⟨n + 1, hn⟩) (blk4 V c ⟨n + 1, hn⟩)
      (blk5 V c ⟨n + 1, hn⟩) (outsAt0 V c n (Nat.lt_of_succ_lt hn)))) y).trans ?_
  exact point_sum V c ⟨n + 1, hn⟩ (outsAt0 V c n (Nat.lt_of_succ_lt hn)) y

/-- So after grid point n the buffer holds the sum of the block sums of points 0 … n. -/
theorem outsAt_eq (c : Dev nD) : ∀ (n : ℕ) (hn : n < cfg0.N) (y : S1x1.Idx),
    (outsAt0 V c n hn : FVec Ideal S1x1 .f32) y = ∑ s ∈ Finset.range (n + 1), blockSum V c s
  | 0, hn, y => by rw [outsAt_zero V c hn y, Finset.sum_range_one]
  | n + 1, hn, y => by
    rw [outsAt_succ V c n hn y, outsAt_eq c n (Nat.lt_of_succ_lt hn) y, Finset.sum_range_succ _ (n + 1)]

/-- The 25 block sums together are the sum over all 50000 rows: row r is row r mod 2000 of block r div 2000. -/
theorem total_eq (c : Dev nD) : ∑ s ∈ Finset.range 25, blockSum V c s = ∑ r : Fin 50000, rowOut V c r := by
  rw [Finset.sum_range (fun s => blockSum V c s)]
  rw [show (∑ r : Fin 50000, rowOut V c r) = ∑ r : Fin (25 * 2000), rowOut V c r from rfl]
  rw [← Equiv.sum_comp (finProdFinEquiv (m := 25) (n := 2000)) (fun r : Fin (25 * 2000) => rowOut V c r)]
  rw [Fintype.sum_prod_type]
  refine Finset.sum_congr rfl fun s _ => ?_
  unfold blockSum
  rw [dif_pos s.isLt]
  refine Finset.sum_congr rfl fun q _ => ?_
  refine congrArg (rowOut V c) (Fin.ext ?_)
  show 2000 * s.val + q.val = q.val + 2000 * s.val
  omega

/-- The perceptron's output summed over all 50000 rows. -/
def total (c : Dev nD) : EReal := ∑ r : Fin 50000, rowOut V c r

/-- The output array's contents when the region ends: its one entry at the whole sum. -/
abbrev result (c : Dev nD) : Buf (Elt Ideal) ((c : Thread nD τ).loc main_v2) :=
  fun _ => total V c

/-- The last grid point. -/
abbrev tLast : Fin cfg0.N := ⟨24, by decide⟩

/-- The one write-back, at the last grid point, writes the whole sum. -/
theorem flushed_eq (c : Dev nD) (t : Fin cfg0.N) (hf : (cfg0.win 6).flush t = true) :
    (dat0 V c).flushed 6 t = ((cfg0.win 6).blk t).view.read (Elt Ideal) (result V c) := by
  have hN : cfg0.N = 25 := N_0
  have h24 : t.val = 24 := by have := (flush0_6 t).mp hf; have := t.isLt; omega
  show (cfg0.win 6).cut (grid0.coords t) ((dat0 V c).after 6 t) = _
  rw [after0_6]
  funext y
  rw [View.read_apply]
  refine (outsAt_eq V c t.val t.isLt _).trans ?_
  rw [h24, total_eq]
  exact (cast_eq _ _).symm

/-- So the output array ends holding the whole sum: the last point's block is the whole array. -/
theorem final (c : Dev nD) : (dat0 V c).arrAt 6 cfg0.N = result V c :=
  (dat0 V c).arrAt_eq_of_cover 6 (result V c) (flushed_eq V c) fun i =>
    ⟨tLast, (flush0_6 tLast).mpr rfl, by
      show i ∈ ((View.whole main_v2).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 1 from by decide +kernel]; omega⟩

/-- When the first region ends, its output array's one entry is the perceptron's output summed over all 50000 rows of the
    node matrix (25 grid points of 2000 rows each, the running sum carried from point to point and reset at the first). -/
theorem prop_region (c : Dev nD) (y : S1x1.Idx) :
    (dat0 (F := Ideal) V c).arrAt 6 cfg0.N y
      = Spec.propSum (V c main_arg0 : S50000x128.Idx → EReal) (V c main_arg5 : S128x128.Idx → EReal)
          (Spec.row0 (V c main_v0 : S1x128.Idx → EReal)) (V c main_arg7 : S128x64.Idx → EReal)
          (Spec.row0 (V c main_v1 : S1x64.Idx → EReal)) (V c main_arg9 : S64x1.Idx → EReal) :=
  congrFun (final V c) y

end Run

end Cert.KernelIdeal.PropRegion

end
-- ==== Proof.Outputs.lean ====
/-
  The two results as functions of the argument arrays: what both programs are shown to end at.
-/
import proofs.«424193_j12438225289736_1_alg».proof.Proof.Gen.ReferenceIdeal.Read
import proofs.«424193_j12438225289736_1_alg».proof.Proof.Spec

noncomputable section

namespace Cert.Outputs

open Idealize.ShloMosaic Idealize.ShloMosaic.ValueIdx Cert.ReferenceIdeal

/-- The first result, a [1 × 1] array: the node perceptron's output summed over all nodes. -/
def out0 (x0 : S50000x128.Idx → EReal) (x5 : S128x128.Idx → EReal) (x6 : S128.Idx → EReal) (x7 : S128x64.Idx → EReal)
    (x8 : S64.Idx → EReal) (x9 : S64x1.Idx → EReal) : S1x1.Idx → EReal :=
  fun _ => Spec.propSum x0 x5 (Spec.vec x6) x7 (Spec.vec x8) x9

/-- The second result, a [50000 × 3] array: at (n, d) the scaled edge vectors' component d summed over the edges whose source
    position is n, an edge's input row being its two end nodes' rows side by side (a negative position counted from the end,
    the row number clamped into the matrix). -/
def out1 (x0 : S50000x128.Idx → EReal) (x1 x2 : S800000.Idx → BitVec 32) (x3 : S800000x3.Idx → EReal)
    (x10 : S256x128.Idx → EReal) (x11 : S128.Idx → EReal) (x12 : S128x64.Idx → EReal) (x13 : S64.Idx → EReal)
    (x14 : S64x1.Idx → EReal) : S50000x3.Idx → EReal :=
  fun j => Spec.nodeForce x1 (Read.val_main_v27 (F := Ideal) x0 x1 x2) x10 (Spec.vec x11) x12 (Spec.vec x13) x14 x3 (j 0) (j 1)

end Cert.Outputs

end
-- ==== Proof.KernelOut0.lean ====
/-
  The kernel program's first result buffer ends at the first output function of its argument arrays.
-/
import proofs.«424193_j12438225289736_1_alg».proof.Proof.HostGlue
import proofs.«424193_j12438225289736_1_alg».proof.Proof.PropRegion
import proofs.«424193_j12438225289736_1_alg».proof.Proof.Outputs
import Idealize.ShloMosaic.Lib.Pipeline.Value
import Idealize.ShloMosaic.Lib.StableHlo.Predicate
import Idealize.ShloMosaic.Lib.IdealHost

set_option maxRecDepth 16384

noncomputable section

open scoped BigOperators

namespace Cert.KernelIdeal.Out0

open Cert.KernelIdeal Cert.KernelIdeal.Gen Idealize.ShloMosaic Idealize.ShloMosaic.TcCoe Idealize.ShloMosaic.ValueIdx Idealize.SL.Sem

/-- A vector laid out as a one-row matrix reads, at (0, j), the vector at j. -/
theorem row0_shapeCast {a : ℕ} (v : (⟨1, ![a]⟩ : Shape).Idx → EReal)
    (h : (⟨1, ![a]⟩ : Shape).ShapeCasts ⟨2, ![1, a]⟩) :
    Spec.row0 (shapeCast ⟨2, ![1, a]⟩ v h) = Spec.vec v :=
  funext fun j => shapeCast_a_1a_apply v h 0 j

variable (m : (ℓ : Loc nD τ sig) → Buf (Elt Ideal) ℓ) (ρ : Dev nD → PrngReg)

/-- What the last boundary holds at the first result buffer: the node perceptron's output summed over all nodes — the first
    region's accumulated output, read over the launch contents of the arguments (the two bias vectors having been laid out as
    one-row matrices before the region). -/
theorem kernel_out0 (c : Dev nD) :
    W7 m ρ c (Proc.devRef .tc main_v2)
      = Cert.Outputs.out0 (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext y
  refine (congrFun (Glue.W7_v2 m ρ c) y).trans ?_
  refine (PropRegion.prop_region (Gen.V1 m ρ) c y).trans ?_
  rw [Glue.V1_arg0 m ρ c, Glue.V1_arg5 m ρ c, Glue.V1_arg7 m ρ c, Glue.V1_arg9 m ρ c, Glue.V1_v0 m ρ c, Glue.V1_v1 m ρ c,
    row0_shapeCast, row0_shapeCast]
  rfl

end Cert.KernelIdeal.Out0

end
-- ==== Proof.ForceRegion.lean ====
/-
  The second kernel region's result: what its [800000 × 3] output array holds when the region ends.

  The region runs over 200 grid points. Point t reads rows 4000 t … 4000 t + 3999 of the edge-input matrix and of the edge
  vectors, and the whole weights and biases; its body applies the three-layer perceptron to each of the 4000 rows (two
  affine layers, each followed by the gate z ↦ z · σ(z), and a last product with one column), repeats the one resulting
  number across the three components and multiplies by the edge vector; the block is written back once, to the same rows
  of the output. First the body's result is read at one entry (q, d) of its block; then each input block is identified
  with the rows of its array; then the 200 written blocks, which tile the 800000 rows, give the array entry by entry.
-/
import proofs.«424193_j12438225289736_1_alg».proof.Proof.Gen.KernelIdeal.Frame
import proofs.«424193_j12438225289736_1_alg».proof.Proof.Spec
import proofs.«424193_j12438225289736_1_alg».proof.Proof.LibDot
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.ForceRegion

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's arithmetic at one entry -/

/-- The gate z ↦ z · σ(z) applied entrywise (and the narrowing that follows it, which changes nothing on the extended
    reals), read at an entry. -/
theorem gate_apply {s : Shape} (v : FVec Ideal s .f32) (i : s.Idx) :
    truncf (F := Ideal) .bf16 (mulf (F := Ideal) v (logistic (F := Ideal) v)) bitsLt_bf16_f32 i = Spec.silu (v i) := rfl

/-- An affine layer as the body computes it — a plain product into the zero accumulator plus the bias row repeated down
    the rows — read at entry (q, j): the weighted sum of row q of the input plus the bias of unit j. -/
theorem layer_apply {R K C : ℕ} (dd : DotDims ⟨2, ![R, K]⟩ ⟨2, ![K, C]⟩ ⟨2, ![R, C]⟩)
    (hlc : dd.lhsContracting = [1]) (hrc : dd.rhsContracting = [0]) (hln : dd.lhsNonContracting = [0])
    (hrn : dd.rhsNonContracting = [1]) (hlb : dd.lhsBatch = []) (hrb : dd.rhsBatch = [])
    (hb : (⟨2, ![1, C]⟩ : Shape).Broadcasts ⟨2, ![R, C]⟩)
    (x : FVec Ideal ⟨2, ![R, K]⟩ .bf16) (w : FVec Ideal ⟨2, ![K, C]⟩ .f32) (b : FVec Ideal ⟨2, ![1, C]⟩ .f32)
    (q : Fin R) (j : Fin C) :
    addf (F := Ideal) (matmul (F := Ideal) dd none x (truncf (F := Ideal) .bf16 w bitsLt_bf16_f32) (constant (F := Ideal) ⟨2, ![R, C]⟩ .f32 0x00000000#32))
        (broadcastTo ⟨2, ![R, C]⟩ b hb) (ix2 q j)
      = Spec.affine (Spec.row x q) (Spec.mat w) (Spec.row0 b) j := by
  rw [addf_apply]
  refine congrArg₂ (· + ·) ?_ ?_
  · exact (Ideal.matmul_constant_zero_apply dd none _ _ _).trans
      (Cert.LibDot.contr_sum_plain dd hlc hrc hln hrn hlb hrb _ _ q j)
  · refine broadcastTo_apply b hb (ix2 q j) (ix2 0 j) (fun a => ?_)
    match a with
    | ⟨0, _⟩ => exact (if_pos rfl).symm
    | ⟨1, _⟩ =>
      show j.val = if C = 1 then 0 else j.val
      split_ifs with h
      · have := j.isLt; omega
      · rfl

/-- THE BODY'S RESULT AT ENTRY (q, d) of its block: the perceptron's output on row q of the edge-input block times the
    edge-vector block's entry (q, d). The last product has one column, which is repeated across the three components. -/
theorem pay_apply (x0 : Vec Ideal S4000x256 .f32) (x2 : Vec Ideal S256x128 .f32) (x3 : Vec Ideal S1x128 .f32)
    (x4 : Vec Ideal S128x64 .f32) (x5 : Vec Ideal S1x64 .f32) (x6 : Vec Ideal S64x1 .f32) (x1 : Vec Ideal S4000x3 .f32)
    (q : Fin 4000) (d : Fin 3) :
    k1_pay1 (F := Ideal) x0 x2 x3 x4 x5 x6 x1 (ix2 q d)
      = Spec.mlp (Spec.row x0 q) (Spec.mat x2) (Spec.row0 x3) (Spec.mat x4) (Spec.row0 x5) (Spec.col0 x6) * x1 (ix2 q d) := by
  unfold k1_pay1
  rw [shapeCast_self, shapeCast_self, shapeCast_self, mulf_apply]
  refine congrArg (· * x1 (ix2 q d)) ?_
  refine (broadcastTo_apply _ _ (ix2 q d) (ix2 q 0) (fun a => ?_)).trans ?_
  · match a with
    | ⟨0, _⟩ => rfl
    | ⟨1, _⟩ => rfl
  refine (Ideal.matmul_constant_zero_apply _ none _ _ _).trans ?_
  refine (Cert.LibDot.contr_sum_plain dot_S4000x64_S64x1_S4000x1_1_0_0_1_n_n rfl rfl rfl rfl rfl rfl _ _ q 0).trans ?_
  unfold Spec.mlp
  refine Finset.sum_congr rfl fun k _ => congrArg (· * _) ?_
  refine (gate_apply _ _).trans (congrArg Spec.silu ?_)
  refine (layer_apply dot_S4000x128_S128x64_S4000x64_1_0_0_1_n_n rfl rfl rfl rfl rfl rfl _ _ _ _ q k).trans ?_
  refine congrArg (fun r => Spec.affine r _ _ k) (funext fun j => ?_)
  refine (gate_apply _ _).trans (congrArg Spec.silu ?_)
  exact layer_apply dot_S4000x256_S256x128_S4000x128_1_0_0_1_n_n rfl rfl rfl rfl rfl rfl _ _ _ _ q j

/-! ## From the blocks to the array -/

theorem hz : (![0, 0] : Fin 2 → Nat) = fun _ => 0 := funext fun a => by fin_cases a <;> rfl

/-- The printed index maps, decided over the 200 grid points: at point t the edge-input matrix, the edge vectors and the
    output are at row-block t; the weights and biases stay at their one block. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Point t's block of the edge-input matrix is rows 4000 t … 4000 t + 3999 of it. -/
theorem edge_block_apply (c : Dev nD) (t : Fin cfg1.N) (q : Fin 4000) (i : Fin 256) (e : Fin 800000)
    (he : e.val = 4000 * t.val + q.val) :
    (iblk1 V c 0 t : Vec Ideal S4000x256 .f32) (ix2 q i) = (V c main_v5 : S800000x256.Idx → EReal) (ix2 e i) := by
  obtain ⟨h0, h1, -⟩ := index_facts t
  show V c main_v5 (((cfg1.win 0).blk t).view.emb (ix2 q i)) = _
  refine congrArg _ (funext fun a => Fin.ext ?_)
  match a with
  | ⟨0, _⟩ => show win1_0.index t (0 : Fin 2) * 4000 + 1 * q.val = e.val; rw [h0, he]; omega
  | ⟨1, _⟩ => show win1_0.index t (1 : Fin 2) * 256 + 1 * i.val = i.val; rw [h1]; omega

/-- Point t's block of the edge vectors is rows 4000 t … 4000 t + 3999 of them. -/
theorem vec_block_apply (c : Dev nD) (t : Fin cfg1.N) (q : Fin 4000) (d : Fin 3) (e : Fin 800000)
    (he : e.val = 4000 * t.val + q.val) :
    (iblk1 V c 1 t : Vec Ideal S4000x3 .f32) (ix2 q d) = (V c main_arg3 : S800000x3.Idx → EReal) (ix2 e d) := by
  obtain ⟨-, -, h0, h1, -⟩ := index_facts t
  show V c main_arg3 (((cfg1.win 1).blk t).view.emb (ix2 q d)) = _
  refine congrArg _ (funext fun a => Fin.ext ?_)
  match a with
  | ⟨0, _⟩ => show win1_1.index t (0 : Fin 2) * 4000 + 1 * q.val = e.val; rw [h0, he]; omega
  | ⟨1, _⟩ => show win1_1.index t (1 : Fin 2) * 3 + 1 * d.val = d.val; rw [h1]; omega

/-- At every point the first layer's weight block is the whole weight matrix, -/
theorem w1_block_apply (c : Dev nD) (t : Fin cfg1.N) (i : Fin 256) (j : Fin 128) :
    (iblk1 V c 2 t : Vec Ideal S256x128 .f32) (ix2 i j) = (V c main_arg10 : S256x128.Idx → EReal) (ix2 i j) := by
  obtain ⟨-, -, -, -, h0, h1, -⟩ := index_facts t
  show V c main_arg10 (((cfg1.win 2).blk t).view.emb (ix2 i j)) = _
  refine congrArg _ (funext fun a => Fin.ext ?_)
  match a with
  | ⟨0, _⟩ => show win1_2.index t (0 : Fin 2) * 256 + 1 * i.val = i.val; rw [h0]; omega
  | ⟨1, _⟩ => show win1_2.index t (1 : Fin 2) * 128 + 1 * j.val = j.val; rw [h1]; omega

/-- the first bias block the whole bias row, -/
theorem b1_block_apply (c : Dev nD) (t : Fin cfg1.N) (j : Fin 128) :
    (iblk1 V c 3 t : Vec Ideal S1x128 .f32) (ix2 0 j) = (V c main_v6 : S1x128.Idx → EReal) (ix2 0 j) := by
  obtain ⟨-, -, -, -, -, -, h0, h1, -⟩ := index_facts t
  show V c main_v6 (((cfg1.win 3).blk t).view.emb (ix2 0 j)) = _
  refine congrArg _ (funext fun a => Fin.ext ?_)
  match a with
  | ⟨0, _⟩ => show win1_3.index t (0 : Fin 2) * 1 + 1 * 0 = 0; rw [h0]
  | ⟨1, _⟩ => show win1_3.index t (1 : Fin 2) * 128 + 1 * j.val = j.val; rw [h1]; omega

/-- the second layer's weight block the whole weight matrix, -/
theorem w2_block_apply (c : Dev nD) (t : Fin cfg1.N) (i : Fin 128) (j : Fin 64) :
    (iblk1 V c 4 t : Vec Ideal S128x64 .f32) (ix2 i j) = (V c main_arg12 : S128x64.Idx → EReal) (ix2 i j) := by
  obtain ⟨-, -, -, -, -, -, -, -, h0, h1, -⟩ := index_facts t
  show V c main_arg12 (((cfg1.win 4).blk t).view.emb (ix2 i j)) = _
  refine congrArg _ (funext fun a => Fin.ext ?_)
  match a with
  | ⟨0, _⟩ => show win1_4.index t (0 : Fin 2) * 128 + 1 * i.val = i.val; rw [h0]; omega
  | ⟨1, _⟩ => show win1_4.index t (1 : Fin 2) * 64 + 1 * j.val = j.val; rw [h1]; omega

/-- the second bias block the whole bias row, -/
theorem b2_block_apply (c : Dev nD) (t : Fin cfg1.N) (j : Fin 64) :
    (iblk1 V c 5 t : Vec Ideal S1x64 .f32) (ix2 0 j) = (V c main_v7 : S1x64.Idx → EReal) (ix2 0 j) := by
  obtain ⟨-, -, -, -, -, -, -, -, -, -, h0, h1, -⟩ := index_facts t
  show V c main_v7 (((cfg1.win 5).blk t).view.emb (ix2 0 j)) = _
  refine congrArg _ (funext fun a => Fin.ext ?_)
  match a with
  | ⟨0, _⟩ => show win1_5.index t (0 : Fin 2) * 1 + 1 * 0 = 0; rw [h0]
  | ⟨1, _⟩ => show win1_5.index t (1 : Fin 2) * 64 + 1 * j.val = j.val; rw [h1]; omega

/-- and the last layer's weight block the whole weight column. -/
theorem w3_block_apply (c : Dev nD) (t : Fin cfg1.N) (k : Fin 64) :
    (iblk1 V c 6 t : Vec Ideal S64x1 .f32) (ix2 k 0) = (V c main_arg14 : S64x1.Idx → EReal) (ix2 k 0) := by
  obtain ⟨-, -, -, -, -, -, -, -, -, -, -, -, h0, h1, -⟩ := index_facts t
  show V c main_arg14 (((cfg1.win 6).blk t).view.emb (ix2 k 0)) = _
  refine congrArg _ (funext fun a => Fin.ext ?_)
  match a with
  | ⟨0, _⟩ => show win1_6.index t (0 : Fin 2) * 64 + 1 * k.val = k.val; rw [h0]; omega
  | ⟨1, _⟩ => show win1_6.index t (1 : Fin 2) * 1 + 1 * 0 = 0; rw [h1]

/-- The region's result as one function of the arrays it finds: entry (e, d) is edge e's scaled vector, component d. -/
abbrev forceArr (c : Dev nD) : S800000x3.Idx → EReal := fun i =>
  Spec.edgeForce (V c main_v5 : S800000x256.Idx → EReal) (V c main_arg10 : S256x128.Idx → EReal)
    (Spec.row0 (V c main_v6 : S1x128.Idx → EReal)) (V c main_arg12 : S128x64.Idx → EReal)
    (Spec.row0 (V c main_v7 : S1x64.Idx → EReal)) (V c main_arg14 : S64x1.Idx → EReal)
    (V c main_arg3 : S800000x3.Idx → EReal) (i 0) (i 1)

/-- THE BODY AT POINT t, entry (q, d) of its block: edge 4000 t + q's scaled vector, component d — the perceptron is applied
    to row q of the point's edge-input block, which is row 4000 t + q of the matrix, with the whole weights and biases. -/
theorem body_apply (c : Dev nD) (t : Fin cfg1.N) (q : Fin 4000) (d : Fin 3) (e : Fin 800000) (d' : Fin 3)
    (he : e.val = 4000 * t.val + q.val) (hd : d'.val = d.val) :
    k1_pay1 (F := Ideal) (iblk1 V c 0 t) (iblk1 V c 2 t) (iblk1 V c 3 t) (iblk1 V c 4 t) (iblk1 V c 5 t) (iblk1 V c 6 t)
        (iblk1 V c 1 t) (ix2 q d)
      = Spec.edgeForce (V c main_v5 : S800000x256.Idx → EReal) (V c main_arg10 : S256x128.Idx → EReal)
          (Spec.row0 (V c main_v6 : S1x128.Idx → EReal)) (V c main_arg12 : S128x64.Idx → EReal)
          (Spec.row0 (V c main_v7 : S1x64.Idx → EReal)) (V c main_arg14 : S64x1.Idx → EReal)
          (V c main_arg3 : S800000x3.Idx → EReal) e d' := by
  obtain rfl : d' = d := Fin.ext hd
  refine (pay_apply (iblk1 V c 0 t) (iblk1 V c 2 t) (iblk1 V c 3 t) (iblk1 V c 4 t) (iblk1 V c 5 t) (iblk1 V c 6 t)
    (iblk1 V c 1 t) q d').trans ?_
  have e0 : Spec.row (iblk1 V c 0 t : Vec Ideal S4000x256 .f32) q = Spec.row (V c main_v5 : S800000x256.Idx → EReal) e :=
    funext fun i => edge_block_apply V c t q i e he
  have e2 : Spec.mat (iblk1 V c 2 t : Vec Ideal S256x128 .f32) = Spec.mat (V c main_arg10 : S256x128.Idx → EReal) :=
    funext fun i => funext fun j => w1_block_apply V c t i j
  have e3 : Spec.row0 (iblk1 V c 3 t : Vec Ideal S1x128 .f32) = Spec.row0 (V c main_v6 : S1x128.Idx → EReal) :=
    funext fun j => b1_block_apply V c t j
  have e4 : Spec.mat (iblk1 V c 4 t : Vec Ideal S128x64 .f32) = Spec.mat (V c main_arg12 : S128x64.Idx → EReal) :=
    funext fun i => funext fun j => w2_block_apply V c t i j
  have e5 : Spec.row0 (iblk1 V c 5 t : Vec Ideal S1x64 .f32) = Spec.row0 (V c main_v7 : S1x64.Idx → EReal) :=
    funext fun j => b2_block_apply V c t j
  have e6 : Spec.col0 (iblk1 V c 6 t : Vec Ideal S64x1 .f32) = Spec.col0 (V c main_arg14 : S64x1.Idx → EReal) :=
    funext fun k => w3_block_apply V c t k
  have e1 : (iblk1 V c 1 t : Vec Ideal S4000x3 .f32) (ix2 q d') = (V c main_arg3 : S800000x3.Idx → EReal) (ix2 e d') :=
    vec_block_apply V c t q d' e he
  unfold Spec.edgeForce
  rw [e0, e2, e3, e4, e5, e6, e1]

/-- WHAT POINT t WRITES BACK is block t of the result array. -/
theorem flushed_eq (c : Dev nD) (t : Fin cfg1.N) :
    (dat1 (F := Ideal) V c).flushed 7 t = ((cfg1.win 7).blk t).view.read (Elt Ideal) (forceArr V c) := by
  show (cfg1.win 7).cut (grid1.coords t) ((dat1 V c).after 7 t) = _
  rw [after1_7]
  unfold out1_7
  rw [View.canon_unit_zero hz]
  simp only [View.ld_unit_zero (S := S4000x256) hz, View.ld_unit_zero (S := S4000x3) hz, View.ld_unit_zero (S := S256x128) hz,
    View.ld_unit_zero (S := S1x128) hz, View.ld_unit_zero (S := S128x64) hz, View.ld_unit_zero (S := S1x64) hz,
    View.ld_unit_zero (S := S64x1) hz]
  obtain ⟨-, -, -, -, -, -, -, -, -, -, -, -, -, -, h0, h1⟩ := index_facts t
  funext y
  obtain ⟨q, d, rfl⟩ : ∃ (q : Fin 4000) (d : Fin 3), y = ix2 q d := ⟨y 0, y 1, eq_ix2 y⟩
  exact body_apply V c t q d _ _
    (show win1_7.index t (0 : Fin 2) * 4000 + 1 * q.val = 4000 * t.val + q.val by rw [h0]; omega)
    (show win1_7.index t (1 : Fin 2) * 3 + 1 * d.val = d.val by rw [h1]; omega)

/-- An index of the output array is in point t's block iff each coordinate is in the block's range on its axis. -/
theorem mem_blk (t : Fin cfg1.N) (i : S800000x3.Idx) :
    i ∈ ((cfg1.win 7).blk t).view.set ↔ ∀ a : Fin 2, win1_7.index t a * S4000x3.size a ≤ (i a).val
      ∧ (i a).val < win1_7.index t a * S4000x3.size a + S4000x3.size a := by
  show i ∈ ((View.whole main_v8).slice (win1_7.rect t)).set ↔ _
  rw [View.set_slice_whole, Rect.mem_set_unit]
  exact Iff.rfl

/-- Row e of the output array lies in the block of point e / 4000: the 200 blocks of 4000 rows tile the 800000 rows. -/
theorem covered (i : S800000x3.Idx) :
    ∃ t : Fin cfg1.N, (cfg1.win 7).flush t = true ∧ i ∈ ((cfg1.win 7).blk t).view.set := by
  have hi0 : (i 0).val < 800000 := (i 0).isLt
  have hi1 : (i 1).val < 3 := (i 1).isLt
  refine ⟨⟨(i 0).val / 4000, by rw [show cfg1.N = 200 from N_1]; omega⟩, flush1_7 _, ?_⟩
  obtain ⟨-, -, -, -, -, -, -, -, -, -, -, -, -, -, h0, h1⟩ := index_facts ⟨(i 0).val / 4000, by rw [show cfg1.N = 200 from N_1]; omega⟩
  rw [mem_blk]
  intro a
  match a with
  | ⟨0, _⟩ =>
    show win1_7.index _ (0 : Fin 2) * 4000 ≤ (i 0).val ∧ (i 0).val < win1_7.index _ (0 : Fin 2) * 4000 + 4000
    rw [h0]; dsimp only; omega
  | ⟨1, _⟩ =>
    show win1_7.index _ (1 : Fin 2) * 3 ≤ (i 1).val ∧ (i 1).val < win1_7.index _ (1 : Fin 2) * 3 + 3
    rw [h1]; omega

/-- THE ARRAY when the region ends: every entry written once, by the point whose block holds its row. -/
theorem final (c : Dev nD) : (dat1 (F := Ideal) V c).arrAt 7 cfg1.N = forceArr V c :=
  (dat1 V c).arrAt_eq_of_cover 7 (forceArr V c) (fun t _ => flushed_eq V c t) covered

/-- When the second region ends, entry (e, d) of its output array is edge e's scaled vector: the perceptron's output on row e
    of the edge-input matrix times the edge vector's component d (200 grid points of 4000 edges each, every block written once). -/
theorem force_region (c : Dev nD) (e : Fin 800000) (d : Fin 3) :
    (dat1 (F := Ideal) V c).arrAt 7 cfg1.N (ix2 e d)
      = Spec.edgeForce (V c main_v5 : S800000x256.Idx → EReal) (V c main_arg10 : S256x128.Idx → EReal)
          (Spec.row0 (V c main_v6 : S1x128.Idx → EReal)) (V c main_arg12 : S128x64.Idx → EReal)
          (Spec.row0 (V c main_v7 : S1x64.Idx → EReal)) (V c main_arg14 : S64x1.Idx → EReal)
          (V c main_arg3 : S800000x3.Idx → EReal) e d := by
  rw [final V c]

end Cert.KernelIdeal.ForceRegion

end
-- ==== Proof.LibScatterGather.lean ====
/-
  Three host operations read at one element, for any extents: a gather of whole rows of a matrix at a column of row
  numbers, and an accumulating scatter into a vector or into the rows of a matrix at a column of positions.

  A gather clamps the row number it reads (signed) into the matrix; a scatter reads the position signed and does NOT
  clamp it: an update whose position is outside the target is dropped.  At the exact (extended-real) instance the
  accumulating scatter is the target's entry plus the sum of the updates that land on it.
-/
import Idealize.ShloMosaic.PureOps.Ideal
import Idealize.ShloMosaic.PureOps.Contract
import Idealize.ShloMosaic.Lib.ValueIdx
import Idealize.ShloMosaic.Lib.StableHlo.Predicate

noncomputable section

open scoped BigOperators

namespace Cert.LibSG

open Idealize.ShloMosaic Idealize.ShloMosaic.ValueIdx Idealize.ShloMosaic.StableHlo.Predicate

/-- Rows gathered from an [N × D] matrix at an [n × 1] column of row numbers: entry (p, f) of the result is the matrix's
    entry (row p's number read signed and clamped into [0, N − 1], f). -/
theorem gather_rows {α : Type} {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![n, 1]⟩ w) (p : Fin n) (f : Fin D) (hN : 0 < N) :
    Host.gather d x idx (ix2 p f) = x (ix2 (⟨min (idx (ixP p)).toInt.toNat (N - 1), by omega⟩ : Fin N) f) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨2, ![N, D]⟩) (si := ⟨2, ![n, 1]⟩) (t := ⟨2, ![n, D]⟩) [1] [0] [] [] [0] 1 ![1, D] wf).siIdx (ix2 p f) c = ixP p := by
      intro c
      funext b; refine Fin.ext ?_
      match b with
      | ⟨0, _⟩ => rfl
      | ⟨1, _⟩ => exact Nat.lt_one_iff.mp c.isLt
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ [0] by decide)]
    simp only [Nat.zero_add]
    rfl

/-- An update lands on operand index i exactly when, on every axis, its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro e a
      have e' := congrArg (fun g : s.Idx => (g a).val) (Option.some.inj e)
      simp only at e'
      have := h a
      omega
    · intro e
      congr 1
      funext a
      refine Fin.ext ?_
      have := e a
      simp only
      omega
  · next h =>
    constructor
    · intro e; cases e
    · intro e
      exfalso
      apply h
      intro a
      have := e a
      have := (i a).isLt
      omega

/-- An accumulating scatter into an [N] vector at an [n × 1] column of positions, at the exact instance: entry i is the
    target's entry plus the sum of the updates whose position, read signed, is i. -/
theorem scatterAdd_flat {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![n, 1]⟩ w) (upd : FVec Ideal ⟨1, ![n]⟩ .f32) (i : Fin N) :
    Host.scatterAdd (F := Ideal) d x idx upd (ix1 i)
      = x (ix1 i) + ∑ e ∈ Finset.univ.filter (fun e : Fin n => (idx (ixP e)).toInt = (i.val : ℤ)), upd (ix1 e) := by
  obtain ⟨uw, iw, sd, iv, wf⟩ := d
  dsimp only at huw hiw hsd hivd
  subst huw hiw hsd hivd
  have hstart : ∀ j : (⟨1, ![n]⟩ : Shape).Idx,
      (ScatterDims.mk (s := ⟨1, ![N]⟩) (si := ⟨2, ![n, 1]⟩) (u := ⟨1, ![n]⟩) [] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hwin : ∀ j : (⟨1, ![n]⟩ : Shape).Idx,
      (ScatterDims.mk (s := ⟨1, ![N]⟩) (si := ⟨2, ![n, 1]⟩) (u := ⟨1, ![n]⟩) [] [0] [0] 1 wf).window j 0 = 0 := by
    intro j
    unfold ScatterDims.window
    exact dif_neg (show (0 : Fin 1) ∉ (List.finRange 1).filter (fun a => a ∉ [(0 : Fin 1)]) by decide)
  have hiff : ∀ j : (⟨1, ![n]⟩ : Shape).Idx,
      (ScatterDims.mk (s := ⟨1, ![N]⟩) (si := ⟨2, ![n, 1]⟩) (u := ⟨1, ![n]⟩) [] [0] [0] 1 wf).resultIdx? j idx = some (ix1 i)
        ↔ (idx (ixP (j 0))).toInt = (i.val : ℤ) := by
    intro j
    rw [resultIdx?_eq_some_iff, Fin.forall_fin_one, hstart, hwin]
    simp
  show x (ix1 i) + _ = _
  congr 1
  refine Finset.sum_nbij' (fun j => j 0) (fun e => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg upd (eq_ix1 j)

/-- An accumulating scatter of [n × D] rows into the rows of an [N × D] matrix at an [n × 1] column of row positions, at
    the exact instance: entry (i, f) is the target's entry plus the sum, over the update rows whose position read signed
    is i, of their entry f. -/
theorem scatterAdd_rows {N D n w : ℕ} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : FVec Ideal ⟨2, ![N, D]⟩ .f32) (idx : IVec ⟨2, ![n, 1]⟩ w) (upd : FVec Ideal ⟨2, ![n, D]⟩ .f32) (i : Fin N) (f : Fin D) :
    Host.scatterAdd (F := Ideal) d x idx upd (ix2 i f)
      = x (ix2 i f) + ∑ e ∈ Finset.univ.filter (fun e : Fin n => (idx (ixP e)).toInt = (i.val : ℤ)), upd (ix2 e f) := by
  obtain ⟨uw, iw, sd, iv, wf⟩ := d
  dsimp only at huw hiw hsd hivd
  subst huw hiw hsd hivd
  have hstart0 : ∀ j : (⟨2, ![n, D]⟩ : Shape).Idx,
      (ScatterDims.mk (s := ⟨2, ![N, D]⟩) (si := ⟨2, ![n, 1]⟩) (u := ⟨2, ![n, D]⟩) [1] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hstart1 : ∀ j : (⟨2, ![n, D]⟩ : Shape).Idx,
      (ScatterDims.mk (s := ⟨2, ![N, D]⟩) (si := ⟨2, ![n, 1]⟩) (u := ⟨2, ![n, D]⟩) [1] [0] [0] 1 wf).start j idx 1 = 0 := by
    intro j
    unfold ScatterDims.start
    rw [dif_neg (show (1 : Fin 2) ∉ [0] by decide)]
  have hwin0 : ∀ j : (⟨2, ![n, D]⟩ : Shape).Idx,
      (ScatterDims.mk (s := ⟨2, ![N, D]⟩) (si := ⟨2, ![n, 1]⟩) (u := ⟨2, ![n, D]⟩) [1] [0] [0] 1 wf).window j 0 = 0 := by
    intro j
    unfold ScatterDims.window
    exact dif_neg (show (0 : Fin 2) ∉ (List.finRange 2).filter (fun a => a ∉ [(0 : Fin 2)]) by decide)
  have hwin1 : ∀ j : (⟨2, ![n, D]⟩ : Shape).Idx,
      (ScatterDims.mk (s := ⟨2, ![N, D]⟩) (si := ⟨2, ![n, 1]⟩) (u := ⟨2, ![n, D]⟩) [1] [0] [0] 1 wf).window j 1 = (j 1).val := by
    intro j
    unfold ScatterDims.window
    exact (dif_pos (show (1 : Fin 2) ∈ (List.finRange 2).filter (fun a => a ∉ [(0 : Fin 2)]) by decide)).trans rfl
  have hiff : ∀ j : (⟨2, ![n, D]⟩ : Shape).Idx,
      (ScatterDims.mk (s := ⟨2, ![N, D]⟩) (si := ⟨2, ![n, 1]⟩) (u := ⟨2, ![n, D]⟩) [1] [0] [0] 1 wf).resultIdx? j idx = some (ix2 i f)
        ↔ (idx (ixP (j 0))).toInt = (i.val : ℤ) ∧ j 1 = f := by
    intro j
    rw [resultIdx?_eq_some_iff, Fin.forall_fin_two, hstart0, hwin0, hstart1, hwin1]
    show (idx (ixP (j 0))).toInt + ((0 : ℕ) : ℤ) = (i.val : ℤ) ∧ (0 : ℤ) + ((j 1).val : ℤ) = (f.val : ℤ) ↔ _
    constructor
    · rintro ⟨h0, h1⟩
      exact ⟨by omega, Fin.ext (by omega)⟩
    · rintro ⟨h0, h1⟩
      subst h1
      exact ⟨by omega, by omega⟩
  show x (ix2 i f) + _ = _
  congr 1
  refine Finset.sum_nbij' (fun j => j 0) (fun e => ix2 e f) ?_ ?_ ?_ ?_ ?_
  · intro j hj
    exact Finset.mem_filter.2 ⟨Finset.mem_univ _, ((hiff j).1 (Finset.mem_filter.1 hj).2).1⟩
  · intro e he
    exact Finset.mem_filter.2 ⟨Finset.mem_univ _, (hiff (ix2 e f)).2 ⟨(Finset.mem_filter.1 he).2, rfl⟩⟩
  · intro j hj
    have h1 := ((hiff j).1 (Finset.mem_filter.1 hj).2).2
    rw [← h1]
    exact (eq_ix2 j).symm
  · intro e _
    rfl
  · intro j hj
    have h1 := ((hiff j).1 (Finset.mem_filter.1 hj).2).2
    rw [← h1]
    exact congrArg upd (eq_ix2 j)

end Cert.LibSG

end
-- ==== Proof.EdgeRows.lean ====
/-
  The two programs' edge-input matrices agree on the rows of every edge whose two positions lie in −50000 … 49999.

  Both programs count a negative position from the end and read the row at the resulting number, the read clamping the
  number into the matrix; the kernel program then replaces the row by a filling unless the number lies in 0 … 49999.  For a
  position in −50000 … 49999 the number does lie there, so nothing is replaced and the two rows are one.
-/
import proofs.«424193_j12438225289736_1_alg».proof.Proof.KernelTake
import proofs.«424193_j12438225289736_1_alg».proof.Proof.Gen.KernelIdeal
import proofs.«424193_j12438225289736_1_alg».proof.Proof.Gen.ReferenceIdeal.Read
import proofs.«424193_j12438225289736_1_alg».proof.Proof.LibScatterGather
import Idealize.ShloMosaic.Lib.ReduceAll
import Idealize.ShloMosaic.Lib.StableHlo.Predicate
import Idealize.ShloMosaic.Lib.Pipeline.Value
import Idealize.ShloMosaic.Lib.ValueIdx

set_option maxRecDepth 16384

noncomputable section

open scoped BigOperators

namespace Cert.EdgeRows

open Idealize.ShloMosaic Idealize.ShloMosaic.ValueIdx Idealize.ShloMosaic.StableHlo.Predicate

/-! ## The row number a position denotes -/

/-- The row number a position denotes: a negative position counts from the end (50000 is added). -/
def wrapWord (w : BitVec 32) : BitVec 32 := Scalar.select (IntOp.cmpi .slt w 0#32) (IntOp.addi w 50000#32) w

/-- For a position in −50000 … 49999 the row number lies in 0 … 49999: a nonnegative position is its own number, and
    adding 50000 to a negative one at least −50000 does not leave the 32-bit signed range. -/
theorem wrapWord_range (w : BitVec 32) (h₁ : -50000 ≤ w.toInt) (h₂ : w.toInt < 50000) :
    0 ≤ (wrapWord w).toInt ∧ (wrapWord w).toInt ≤ 49999 := by
  unfold wrapWord Scalar.select
  by_cases h : IntOp.cmpi .slt w 0#32 = (1 : BitVec 1)
  · rw [if_pos h]
    have hneg : w.toInt < 0 := by simpa using IntOp.cmpi_slt.1 h
    have e : (IntOp.addi w 50000#32).toInt = w.toInt + 50000 := by
      unfold IntOp.addi
      rw [BitVec.toInt_add, Int.bmod_def]
      have : (50000#32 : BitVec 32).toInt = 50000 := by decide
      rw [this]
      norm_num
      omega
    omega
  · rw [if_neg h]
    have hnn : ¬ w.toInt < 0 := by
      intro hlt
      exact h (IntOp.cmpi_slt.2 (by simpa using hlt))
    omega

/-! ## A reduction by "and" over words that are all one -/

/-- A left fold by and from 1 over one-bit words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, IntOp.andi_eq_one.2 ⟨rfl, h a List.mem_cons_self⟩]
    exact foldl_andi_one f l (fun n hn => h n (List.mem_cons_of_mem _ hn))

/-- A reduction by and, from 1, is 1 at a result index when every operand element that reduces into it is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_one x _ (fun i hi => hx i ?_)
  have := (List.mem_filter.1 hi).2
  simpa using this

/-! ## The kernel program's gather at one element -/

/-- The kernel program's column of row numbers at row e is the number position e denotes. -/
theorem wrapCol_apply (s : Cert.KernelIdeal.S800000.Idx → BitVec 32) (e : Fin 800000) :
    Cert.KernelIdeal.wrapCol s (ixP e) = wrapWord (s (ix1 e)) := by
  unfold Cert.KernelIdeal.wrapCol
  rw [broadcastInDim_apply _ _ _ (ixP e) (ix1 e) (fun a => match a with
    | ⟨0, _⟩ => by show e.val = if (800000 : Nat) = 1 then 0 else e.val; rw [if_neg (by decide)])]
  rfl

/-- The kernel program's range mask is one at a row whose number lies in 0 … 49999. -/
theorem inRange_one (w : Cert.KernelIdeal.S800000x1.Idx → BitVec 32) (e : Fin 800000)
    (h0 : 0 ≤ (w (ixP e)).toInt) (h1 : (w (ixP e)).toInt ≤ 49999) :
    Cert.KernelIdeal.inRange w (ix1 e) = 1#1 := by
  unfold Cert.KernelIdeal.inRange
  refine reduce_andi_one _ _ _ _ _ rfl (fun i hi => ?_)
  have hi0 : (i 0).val = e.val := by
    have := Shape.ReducesTo.drop_apply_val_of_eq Cert.KernelIdeal.Facts₀.reducesTo_S800000x1_S800000_d1 i 0 0
    rw [hi] at this
    exact this.symm
  have hie : i = ixP e := by
    funext a
    match a with
    | ⟨0, _⟩ => exact Fin.ext hi0
    | ⟨1, _⟩ => exact Fin.ext (Nat.lt_one_iff.mp (i 1).isLt)
  subst hie
  refine IntOp.andi_eq_one.2 ⟨IntOp.cmpi_sge.2 ?_, IntOp.cmpi_sle.2 ?_⟩
  · show (0#32 : BitVec 32).toInt ≤ _
    simpa using h0
  · show _ ≤ (49999#32 : BitVec 32).toInt
    have : (49999#32 : BitVec 32).toInt = 49999 := by decide
    rw [this]
    exact h1

/-- Entry (e, j) of the kernel program's gathered rows, for a position in −50000 … 49999: the matrix's entry at the
    row number the position denotes (clamped into the matrix), column j. -/
theorem takeRows_apply (x : Cert.KernelIdeal.S50000x128.Idx → EReal) (s : Cert.KernelIdeal.S800000.Idx → BitVec 32)
    (e : Fin 800000) (j : Fin 128) (h₁ : -50000 ≤ (s (ix1 e)).toInt) (h₂ : (s (ix1 e)).toInt < 50000) :
    Cert.KernelIdeal.takeRows (F := Ideal) x s (ix2 e j)
      = x (ix2 (⟨min (wrapWord (s (ix1 e))).toInt.toNat (50000 - 1), by omega⟩ : Fin 50000) j) := by
  have hr := wrapWord_range _ h₁ h₂
  unfold Cert.KernelIdeal.takeRows
  rw [select_apply, broadcastInDim_apply _ _ _ (ix2 e j) (ix1 e) (fun a => match a with
    | ⟨0, _⟩ => by show e.val = if (800000 : Nat) = 1 then 0 else e.val; rw [if_neg (by decide)]),
    inRange_one _ e (by rw [wrapCol_apply]; exact hr.1) (by rw [wrapCol_apply]; exact hr.2), select_one,
    Cert.LibSG.gather_rows _ rfl rfl rfl rfl rfl rfl rfl x (Cert.KernelIdeal.wrapCol s) e j (by decide)]
  simp only [wrapCol_apply]

/-! ## The reference's gathers at one element -/

/-- The reference's first column of row numbers at row e is the number position e of the first vector denotes. -/
theorem ref_col18_apply (s : Cert.KernelIdeal.S800000.Idx → BitVec 32) (e : Fin 800000) :
    Cert.ReferenceIdeal.Read.val_main_v18 (F := Ideal) s (ixP e) = wrapWord (s (ix1 e)) := by
  rw [Cert.ReferenceIdeal.Read.val_main_v18_apply]
  have hk : Cert.ReferenceIdeal.Read.idx_main_v18 (ixP e) = ix1 e := funext fun a => match a with | ⟨0, _⟩ => rfl
  rw [hk]
  rfl

/-- The reference's second column of row numbers at row e is the number position e of the second vector denotes. -/
theorem ref_col25_apply (t : Cert.KernelIdeal.S800000.Idx → BitVec 32) (e : Fin 800000) :
    Cert.ReferenceIdeal.Read.val_main_v25 (F := Ideal) t (ixP e) = wrapWord (t (ix1 e)) := by
  rw [Cert.ReferenceIdeal.Read.val_main_v25_apply]
  have hk : Cert.ReferenceIdeal.Read.idx_main_v25 (ixP e) = ix1 e := funext fun a => match a with | ⟨0, _⟩ => rfl
  rw [hk]
  rfl

/-- Entry (e, j) of the reference's first gathered rows: the matrix's entry at the row number the position denotes
    (clamped into the matrix), column j; the reference makes no range test. -/
theorem ref_rows19_apply (x : Cert.KernelIdeal.S50000x128.Idx → EReal) (s : Cert.KernelIdeal.S800000.Idx → BitVec 32)
    (e : Fin 800000) (j : Fin 128) :
    Cert.ReferenceIdeal.Read.val_main_v19 (F := Ideal) x s (ix2 e j)
      = x (ix2 (⟨min (wrapWord (s (ix1 e))).toInt.toNat (50000 - 1), by omega⟩ : Fin 50000) j) := by
  unfold Cert.ReferenceIdeal.Read.val_main_v19
  rw [Cert.LibSG.gather_rows _ rfl rfl rfl rfl rfl rfl rfl x _ e j (by decide)]
  simp only [ref_col18_apply]

/-- Entry (e, j) of the reference's second gathered rows, likewise. -/
theorem ref_rows26_apply (x : Cert.KernelIdeal.S50000x128.Idx → EReal) (t : Cert.KernelIdeal.S800000.Idx → BitVec 32)
    (e : Fin 800000) (j : Fin 128) :
    Cert.ReferenceIdeal.Read.val_main_v26 (F := Ideal) x t (ix2 e j)
      = x (ix2 (⟨min (wrapWord (t (ix1 e))).toInt.toNat (50000 - 1), by omega⟩ : Fin 50000) j) := by
  unfold Cert.ReferenceIdeal.Read.val_main_v26
  rw [Cert.LibSG.gather_rows _ rfl rfl rfl rfl rfl rfl rfl x _ e j (by decide)]
  simp only [ref_col25_apply]

/-- Row e of the kernel program's edge-input matrix (its two gathers side by side) is row e of the reference's, when edge e's two
    positions lie in −50000 … 49999. -/
theorem edge_rows_agree (x : Cert.KernelIdeal.S50000x128.Idx → EReal) (s t : Cert.KernelIdeal.S800000.Idx → BitVec 32) (e : Fin 800000)
    (hs₁ : -50000 ≤ (s (ix1 e)).toInt) (hs₂ : (s (ix1 e)).toInt < 50000)
    (ht₁ : -50000 ≤ (t (ix1 e)).toInt) (ht₂ : (t (ix1 e)).toInt < 50000) (i : Fin 256) :
    concatenate Cert.KernelIdeal.S800000x256 1
        [⟨Cert.KernelIdeal.S800000x128, Cert.KernelIdeal.takeRows (F := Ideal) x s⟩,
         ⟨Cert.KernelIdeal.S800000x128, Cert.KernelIdeal.takeRows (F := Ideal) x t⟩]
        Cert.KernelIdeal.Facts₀.concatenates_S800000x128_S800000x128_S800000x256_d1 (ix2 e i)
      = Cert.ReferenceIdeal.Read.val_main_v27 (F := Ideal) x s t (ix2 e i) := by
  unfold Cert.ReferenceIdeal.Read.val_main_v27
  by_cases hi : i.val < 128
  · -- the first 128 columns: both sides read their first piece at (e, i)
    have hc : ∀ b : Fin 2, ((ix2 e (⟨i.val, hi⟩ : Fin 128)) b).val = ((ix2 e i) (b.cast rfl)).val := fun b =>
      match b with
      | ⟨0, _⟩ => rfl
      | ⟨1, _⟩ => rfl
    rw [concatenate_pair_apply_left (s₁ := Cert.KernelIdeal.S800000x128) (s₂ := Cert.KernelIdeal.S800000x128) 1 _ _ _ (ix2 e i) rfl (ix2 e (⟨i.val, hi⟩ : Fin 128)) hc,
      concatenate_pair_apply_left (s₁ := Cert.KernelIdeal.S800000x128) (s₂ := Cert.KernelIdeal.S800000x128) 1 _ _ _ (ix2 e i) rfl (ix2 e (⟨i.val, hi⟩ : Fin 128)) hc,
      takeRows_apply x s e _ hs₁ hs₂, ref_rows19_apply]
  · -- the last 128 columns: both sides read their second piece at (e, i − 128)
    have hi' : i.val - 128 < 128 := by have := i.isLt; omega
    have hc : ∀ b : Fin 2, b.cast rfl ≠ (1 : Fin 2) →
        ((ix2 e (⟨i.val - 128, hi'⟩ : Fin 128)) b).val = ((ix2 e i) (b.cast rfl)).val := fun b hb =>
      match b, hb with
      | ⟨0, _⟩, _ => rfl
      | ⟨1, _⟩, hb => absurd rfl hb
    have ha : ((ix2 e (⟨i.val - 128, hi'⟩ : Fin 128)) ((1 : Fin 2).cast rfl)).val
        + Cert.KernelIdeal.S800000x128.size ((1 : Fin 2).cast rfl) = ((ix2 e i) 1).val := by
      show i.val - 128 + 128 = i.val
      omega
    rw [concatenate_pair_apply_right (s₁ := Cert.KernelIdeal.S800000x128) (s₂ := Cert.KernelIdeal.S800000x128) 1 _ _ _ (ix2 e i) rfl rfl (ix2 e (⟨i.val - 128, hi'⟩ : Fin 128)) hc ha,
      concatenate_pair_apply_right (s₁ := Cert.KernelIdeal.S800000x128) (s₂ := Cert.KernelIdeal.S800000x128) 1 _ _ _ (ix2 e i) rfl rfl (ix2 e (⟨i.val - 128, hi'⟩ : Fin 128)) hc ha,
      takeRows_apply x t e _ ht₁ ht₂, ref_rows26_apply]

end Cert.EdgeRows

end
-- ==== Proof.KernelOut1.lean ====
/-
  The kernel program's second result buffer ends at the second output function of its argument arrays, when every target position lies in −50000 … 49999.
-/
import proofs.«424193_j12438225289736_1_alg».proof.Proof.HostGlue
import proofs.«424193_j12438225289736_1_alg».proof.Proof.ForceRegion
import proofs.«424193_j12438225289736_1_alg».proof.Proof.EdgeRows
import proofs.«424193_j12438225289736_1_alg».proof.Proof.LibScatterGather
import proofs.«424193_j12438225289736_1_alg».proof.Proof.Outputs
import Idealize.ShloMosaic.Lib.Pipeline.Value
import Idealize.ShloMosaic.Lib.StableHlo.Predicate
import Idealize.ShloMosaic.Lib.IdealHost

set_option maxRecDepth 16384

noncomputable section

open scoped BigOperators

namespace Cert.KernelIdeal.Out1

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- A vector laid out as a one-row matrix reads, in its one row at column j, the vector at j. -/
theorem row0_shapeCast {n : ℕ} (v : (⟨1, ![n]⟩ : Shape).Idx → EReal) (h : (⟨1, ![n]⟩ : Shape).ShapeCasts ⟨2, ![1, n]⟩) :
    Spec.row0 (shapeCast ⟨2, ![1, n]⟩ v h) = Spec.vec v := by
  funext j
  exact (shapeCast_addUnit_apply (n := 1) ![n] v h (ix2 0 j)).trans
    (congrArg v (funext fun a => match a with | ⟨0, _⟩ => rfl))

/-- What the last boundary holds at the second result buffer: at (n, d) the scaled edge vectors summed over the edges whose
    source position is n.  An edge that lands on node n has its source position in range, and its target position is in range
    by hypothesis, so its input row is the reference's. -/
theorem kernel_out1 (c : Dev nD)
    (ht : ∀ e : Fin 800000, -50000 ≤ (((m ((c.tc : Thread nD τ).loc main_arg2)) : S800000.Idx → BitVec 32) (ix1 e)).toInt
        ∧ (((m ((c.tc : Thread nD τ).loc main_arg2)) : S800000.Idx → BitVec 32) (ix1 e)).toInt < 50000) :
    W7 m ρ c (Proc.devRef .tc main_v11)
      = Cert.Outputs.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [Glue.W7_v11]
  funext j
  obtain ⟨n, d, rfl⟩ : ∃ (n : Fin 50000) (d : Fin 3), j = ix2 n d := ⟨j 0, j 1, eq_ix2 j⟩
  rw [Cert.LibSG.scatterAdd_rows _ rfl rfl rfl rfl]
  -- the zero matrix the rows are added into
  have hbase : broadcastInDim S50000x3 ![] Facts₀.bcast_S_S50000x3 (constant (F := Ideal) S_ .f32 0x00000000#32) (ix2 n d)
      = (0 : EReal) := by
    show Ideal.ofBits .f32 0x00000000#32 = 0
    exact Ideal.ofBits_zero_f32
  -- the column of positions at row e is the source position of edge e
  have hcol : ∀ e : Fin 800000,
      broadcastInDim S800000x1 ![0] Facts₀.bcast_S800000_S800000x1_0 (m ((c.tc : Thread nD τ).loc main_arg1)) (StableHlo.Predicate.ixP e)
        = (m ((c.tc : Thread nD τ).loc main_arg1) : S800000.Idx → BitVec 32) (ix1 e) := fun e =>
    broadcastInDim_apply _ _ _ (StableHlo.Predicate.ixP e) (ix1 e) (fun a => match a with
      | ⟨0, _⟩ => by show e.val = if (800000 : Nat) = 1 then 0 else e.val; rw [if_neg (by decide)])
  -- the second region's output at (e, d) is edge e's scaled vector, over what the region found
  have hsum : ∀ e : Fin 800000, (dat1 (F := Ideal) (V5 m ρ) c).arrAt 7 cfg1.N (ix2 e d)
      = Spec.edgeForce (V5 m ρ c main_v5 : S800000x256.Idx → EReal) (m ((c.tc : Thread nD τ).loc main_arg10))
          (Spec.vec (m ((c.tc : Thread nD τ).loc main_arg11))) (m ((c.tc : Thread nD τ).loc main_arg12))
          (Spec.vec (m ((c.tc : Thread nD τ).loc main_arg13))) (m ((c.tc : Thread nD τ).loc main_arg14))
          (m ((c.tc : Thread nD τ).loc main_arg3)) e d := by
    intro e
    rw [ForceRegion.force_region (V5 m ρ) c e d, Glue.V5_arg10, Glue.V5_arg12, Glue.V5_arg14, Glue.V5_arg3, Glue.V5_v6,
      Glue.V5_v7, row0_shapeCast, row0_shapeCast]
  rw [hbase, zero_add]
  simp only [hcol, hsum]
  show Spec.nodeForce (m ((c.tc : Thread nD τ).loc main_arg1)) (V5 m ρ c main_v5 : S800000x256.Idx → EReal) _ _ _ _ _ _ n d
    = Spec.nodeForce (m ((c.tc : Thread nD τ).loc main_arg1)) _ _ _ _ _ _ _ n d
  refine Spec.nodeForce_congr _ _ _ _ _ _ _ _ _ n d (fun e he i => ?_)
  rw [Glue.V5_v5]
  exact EdgeRows.edge_rows_agree _ _ _ e (by have := n.isLt; omega) (by have := n.isLt; omega) (ht e).1 (ht e).2 i

end Cert.KernelIdeal.Out1

end
-- ==== Proof.RefSpec.lean ====
/-
  The reference program's two results, read stage by stage, are the specification's two functions of its arguments.

  Each chain (nodes, edges) is read one layer at a time at an index given by its coordinates: an affine layer is the
  weighted sum plus the bias, the gate is z · (1 / (1 + e^(−z))), and the last layer is the weighted sum onto one number.
  The first result adds the node chain's output over all rows; the second is the accumulating scatter of the scaled edge
  vectors, which at the exact instance is the sum over the edges whose position, read signed, is the node.
-/
import proofs.«424193_j12438225289736_1_alg».proof.Proof.Gen.ReferenceIdeal.Read
import proofs.«424193_j12438225289736_1_alg».proof.Proof.Spec
import proofs.«424193_j12438225289736_1_alg».proof.Proof.LibScatterGather
import Idealize.ShloMosaic.PureOps.Ideal.Laws
import Idealize.ShloMosaic.Lib.Pipeline.Value
import Idealize.ShloMosaic.Lib.ValueIdx
import Idealize.ShloMosaic.Lib.IdealHost

set_option maxRecDepth 16384

noncomputable section

open scoped BigOperators

namespace Cert.ReferenceIdeal.RefSpec

open Cert.ReferenceIdeal Cert.ReferenceIdeal.Gen Cert.ReferenceIdeal.Read Idealize.ShloMosaic Idealize.ShloMosaic.TcCoe Idealize.ShloMosaic.ValueIdx Idealize.SL.Sem

/-! ## The gate -/

/-- The host's spelling of the gate, z · (1 / (1 + e^(−z))) with the constant one given by its bit pattern, is the
    specification's gate. -/
theorem silu_host (z : EReal) :
    FloatOps.mulf (F := Ideal) (φ := .f32) z (FloatOps.hostDivf (FloatOps.ofBits .f32 0x3F800000#32)
      (FloatOps.addf (FloatOps.ofBits .f32 0x3F800000#32) (FloatOps.hostUnary .exp (FloatOps.hostNegf z)))) = Spec.silu z := by
  simp only [Ideal.mulf_def, Ideal.hostDivf_def, Ideal.ofBits_def, Ideal.ofBits_one_f32, Ideal.addf_def,
    Ideal.hostUnary_exp_def, Ideal.hostNegf_def, Ideal.negf_def]
  rfl

/-! ## The node chain: index equations, then one lemma per layer -/

section nodes
variable (x0 : S50000x128.Idx → EReal) (x5 : S128x128.Idx → EReal) (x6 : S128.Idx → EReal) (x7 : S128x64.Idx → EReal)
    (x8 : S64.Idx → EReal) (x9 : S64x1.Idx → EReal)

theorem lidx0 (r : Fin 50000) (j k : Fin 128) : lidx_main_v0 (ix2 r j) k = ix2 r k :=
  funext fun a => Fin.ext (by match a with | ⟨0, _⟩ => rfl | ⟨1, _⟩ => rfl)
theorem ridx0 (r : Fin 50000) (j k : Fin 128) : ridx_main_v0 (ix2 r j) k = ix2 k j :=
  funext fun a => Fin.ext (by match a with | ⟨0, _⟩ => rfl | ⟨1, _⟩ => rfl)
theorem idx21 (r : Fin 50000) (j : Fin 128) : idx_main_v1 (idx_main_v2 (ix2 r j)) = ix1 j :=
  funext fun a => Fin.ext (by match a with | ⟨0, _⟩ => rfl)

/-- The first affine layer of the node chain, at row r and unit j. -/
theorem node_v3 (r : Fin 50000) (j : Fin 128) :
    val_main_v3 (F := Ideal) x0 x5 x6 (ix2 r j) = Spec.affine (Spec.row x0 r) (Spec.mat x5) (Spec.vec x6) j := by
  rw [val_main_v3_apply, val_main_v0_apply, val_main_v2_apply, val_main_v1_apply]
  simp only [Ideal.addf_def, lidx0, ridx0, idx21]
  rfl

/-- The first gated layer of the node chain. -/
theorem node_v4 (r : Fin 50000) (j : Fin 128) :
    val_main_v4 (F := Ideal) x0 x5 x6 (ix2 r j) = Spec.silu (Spec.affine (Spec.row x0 r) (Spec.mat x5) (Spec.vec x6) j) := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, node_v3, silu_host]

theorem lidx5 (r : Fin 50000) (j : Fin 64) (k : Fin 128) : lidx_main_v5 (ix2 r j) k = ix2 r k :=
  funext fun a => Fin.ext (by match a with | ⟨0, _⟩ => rfl | ⟨1, _⟩ => rfl)
theorem ridx5 (r : Fin 50000) (j : Fin 64) (k : Fin 128) : ridx_main_v5 (ix2 r j) k = ix2 k j :=
  funext fun a => Fin.ext (by match a with | ⟨0, _⟩ => rfl | ⟨1, _⟩ => rfl)
theorem idx76 (r : Fin 50000) (j : Fin 64) : idx_main_v6 (idx_main_v7 (ix2 r j)) = ix1 j :=
  funext fun a => Fin.ext (by match a with | ⟨0, _⟩ => rfl)

/-- The second affine layer of the node chain, fed by the first gated layer. -/
theorem node_v8 (r : Fin 50000) (j : Fin 64) :
    val_main_v8 (F := Ideal) x0 x5 x6 x7 x8 (ix2 r j)
      = Spec.affine (fun i => Spec.silu (Spec.affine (Spec.row x0 r) (Spec.mat x5) (Spec.vec x6) i)) (Spec.mat x7) (Spec.vec x8) j := by
  rw [val_main_v8_apply, val_main_v5_apply, val_main_v7_apply, val_main_v6_apply]
  simp only [Ideal.addf_def, lidx5, ridx5, idx76, node_v4]
  rfl

/-- The second gated layer of the node chain. -/
theorem node_v9 (r : Fin 50000) (j : Fin 64) :
    val_main_v9 (F := Ideal) x0 x5 x6 x7 x8 (ix2 r j)
      = Spec.silu (Spec.affine (fun i => Spec.silu (Spec.affine (Spec.row x0 r) (Spec.mat x5) (Spec.vec x6) i)) (Spec.mat x7) (Spec.vec x8) j) := by
  rw [val_main_v9_apply, val_main_call1_v5_apply, val_main_call1_v4_apply, val_main_call1_cst_0_apply,
    val_main_call1_v3_apply, val_main_call1_v2_apply, val_main_call1_cst_apply, val_main_call1_v1_apply,
    val_main_call1_v0_apply, node_v8, silu_host]

theorem lidx10 (r : Fin 50000) (j : Fin 1) (k : Fin 64) : lidx_main_v10 (ix2 r j) k = ix2 r k :=
  funext fun a => Fin.ext (by match a with | ⟨0, _⟩ => rfl | ⟨1, _⟩ => rfl)
theorem ridx10 (r : Fin 50000) (j : Fin 1) (k : Fin 64) : ridx_main_v10 (ix2 r j) k = ix2 k j :=
  funext fun a => Fin.ext (by match a with | ⟨0, _⟩ => rfl | ⟨1, _⟩ => rfl)

/-- The node chain's last stage at row r is the perceptron's output on that row. -/
theorem node_v10 (r : Fin 50000) :
    val_main_v10 (F := Ideal) x0 x5 x6 x7 x8 x9 (ix2 r 0)
      = Spec.mlp (Spec.row x0 r) (Spec.mat x5) (Spec.vec x6) (Spec.mat x7) (Spec.vec x8) (Spec.col0 x9) := by
  rw [val_main_v10_apply]
  simp only [lidx10, ridx10, node_v9]
  rfl

theorem idx1112 (y : S1x1.Idx) (k : Fin 50000) : idx_main_v11 (idx_main_v12 y) k = ix2 k 0 :=
  funext fun a => Fin.ext (by match a with | ⟨0, _⟩ => rfl | ⟨1, _⟩ => rfl)
end nodes

/-- The reference's first result: its one entry is the perceptron's output summed over all nodes. -/
theorem ref_prop (x0 : S50000x128.Idx → EReal) (x5 : S128x128.Idx → EReal) (x6 : S128.Idx → EReal) (x7 : S128x64.Idx → EReal)
    (x8 : S64.Idx → EReal) (x9 : S64x1.Idx → EReal) (y : S1x1.Idx) :
    val_main_v12 (F := Ideal) x0 x5 x6 x7 x8 x9 y = Spec.propSum x0 x5 (Spec.vec x6) x7 (Spec.vec x8) x9 := by
  rw [val_main_v12_apply, val_main_v11_apply, val_main_cst_apply, Ideal.ofBits_def, Ideal.ofBits_zero_f32, zero_add]
  simp only [idx1112, node_v10]
  rfl

/-! ## The edge chain: the same layers over the joined gathered rows, which stay opaque -/

section edges
variable (x0 : S50000x128.Idx → EReal) (x1 x2 : S800000.Idx → BitVec 32) (x3 : S800000x3.Idx → EReal)
    (x10 : S256x128.Idx → EReal) (x11 : S128.Idx → EReal) (x12 : S128x64.Idx → EReal) (x13 : S64.Idx → EReal)
    (x14 : S64x1.Idx → EReal)

theorem lidx28 (e : Fin 800000) (j : Fin 128) (k : Fin 256) : lidx_main_v28 (ix2 e j) k = ix2 e k :=
  funext fun a => Fin.ext (by match a with | ⟨0, _⟩ => rfl | ⟨1, _⟩ => rfl)
theorem ridx28 (e : Fin 800000) (j : Fin 128) (k : Fin 256) : ridx_main_v28 (ix2 e j) k = ix2 k j :=
  funext fun a => Fin.ext (by match a with | ⟨0, _⟩ => rfl | ⟨1, _⟩ => rfl)
theorem idx3029 (e : Fin 800000) (j : Fin 128) : idx_main_v29 (idx_main_v30 (ix2 e j)) = ix1 j :=
  funext fun a => Fin.ext (by match a with | ⟨0, _⟩ => rfl)

/-- The first affine layer of the edge chain, at edge e and unit j; the edge inputs are the joined gathered rows. -/
theorem edge_v31 (e : Fin 800000) (j : Fin 128) :
    val_main_v31 (F := Ideal) x0 x1 x2 x10 x11 (ix2 e j)
      = Spec.affine (Spec.row (val_main_v27 (F := Ideal) x0 x1 x2) e) (Spec.mat x10) (Spec.vec x11) j := by
  rw [val_main_v31_apply, val_main_v28_apply, val_main_v30_apply, val_main_v29_apply]
  generalize val_main_v27 (F := Ideal) x0 x1 x2 = E
  simp only [Ideal.addf_def, lidx28, ridx28, idx3029]
  rfl

/-- The first gated layer of the edge chain. -/
theorem edge_v32 (e : Fin 800000) (j : Fin 128) :
    val_main_v32 (F := Ideal) x0 x1 x2 x10 x11 (ix2 e j)
      = Spec.silu (Spec.affine (Spec.row (val_main_v27 (F := Ideal) x0 x1 x2) e) (Spec.mat x10) (Spec.vec x11) j) := by
  rw [val_main_v32_apply, val_main_call2_v5_apply, val_main_call2_v4_apply, val_main_call2_cst_0_apply,
    val_main_call2_v3_apply, val_main_call2_v2_apply, val_main_call2_cst_apply, val_main_call2_v1_apply,
    val_main_call2_v0_apply, edge_v31, silu_host]

theorem lidx33 (e : Fin 800000) (j : Fin 64) (k : Fin 128) : lidx_main_v33 (ix2 e j) k = ix2 e k :=
  funext fun a => Fin.ext (by match a with | ⟨0, _⟩ => rfl | ⟨1, _⟩ => rfl)
theorem ridx33 (e : Fin 800000) (j : Fin 64) (k : Fin 128) : ridx_main_v33 (ix2 e j) k = ix2 k j :=
  funext fun a => Fin.ext (by match a with | ⟨0, _⟩ => rfl | ⟨1, _⟩ => rfl)
theorem idx3534 (e : Fin 800000) (j : Fin 64) : idx_main_v34 (idx_main_v35 (ix2 e j)) = ix1 j :=
  funext fun a => Fin.ext (by match a with | ⟨0, _⟩ => rfl)

/-- The second affine layer of the edge chain, fed by the first gated layer. -/
theorem edge_v36 (e : Fin 800000) (j : Fin 64) :
    val_main_v36 (F := Ideal) x0 x1 x2 x10 x11 x12 x13 (ix2 e j)
      = Spec.affine (fun i => Spec.silu (Spec.affine (Spec.row (val_main_v27 (F := Ideal) x0 x1 x2) e) (Spec.mat x10) (Spec.vec x11) i))
          (Spec.mat x12) (Spec.vec x13) j := by
  rw [val_main_v36_apply, val_main_v33_apply, val_main_v35_apply, val_main_v34_apply]
  simp only [Ideal.addf_def, lidx33, ridx33, idx3534, edge_v32]
  generalize val_main_v27 (F := Ideal) x0 x1 x2 = E
  rfl

/-- The second gated layer of the edge chain. -/
theorem edge_v37 (e : Fin 800000) (j : Fin 64) :
    val_main_v37 (F := Ideal) x0 x1 x2 x10 x11 x12 x13 (ix2 e j)
      = Spec.silu (Spec.affine (fun i => Spec.silu (Spec.affine (Spec.row (val_main_v27 (F := Ideal) x0 x1 x2) e) (Spec.mat x10) (Spec.vec x11) i))
          (Spec.mat x12) (Spec.vec x13) j) := by
  rw [val_main_v37_apply, val_main_call3_v5_apply, val_main_call3_v4_apply, val_main_call3_cst_0_apply,
    val_main_call3_v3_apply, val_main_call3_v2_apply, val_main_call3_cst_apply, val_main_call3_v1_apply,
    val_main_call3_v0_apply, edge_v36, silu_host]

theorem lidx38 (e : Fin 800000) (j : Fin 1) (k : Fin 64) : lidx_main_v38 (ix2 e j) k = ix2 e k :=
  funext fun a => Fin.ext (by match a with | ⟨0, _⟩ => rfl | ⟨1, _⟩ => rfl)
theorem ridx38 (e : Fin 800000) (j : Fin 1) (k : Fin 64) : ridx_main_v38 (ix2 e j) k = ix2 k j :=
  funext fun a => Fin.ext (by match a with | ⟨0, _⟩ => rfl | ⟨1, _⟩ => rfl)

/-- The edge chain's last stage at edge e is the perceptron's output on that edge's input row. -/
theorem edge_v38 (e : Fin 800000) :
    val_main_v38 (F := Ideal) x0 x1 x2 x10 x11 x12 x13 x14 (ix2 e 0)
      = Spec.mlp (Spec.row (val_main_v27 (F := Ideal) x0 x1 x2) e) (Spec.mat x10) (Spec.vec x11) (Spec.mat x12) (Spec.vec x13)
          (Spec.col0 x14) := by
  rw [val_main_v38_apply]
  simp only [lidx38, ridx38, edge_v37]
  generalize val_main_v27 (F := Ideal) x0 x1 x2 = E
  rfl

theorem idx39 (e : Fin 800000) (d : Fin 3) : idx_main_v39 (ix2 e d) = ix2 e 0 :=
  funext fun a => Fin.ext (by match a with | ⟨0, _⟩ => rfl | ⟨1, _⟩ => rfl)

/-- The scaled edge vector: the perceptron's output on edge e, spread along the three components, times the edge's vector. -/
theorem edge_v40 (e : Fin 800000) (d : Fin 3) :
    val_main_v40 (F := Ideal) x0 x1 x2 x3 x10 x11 x12 x13 x14 (ix2 e d)
      = Spec.edgeForce (val_main_v27 (F := Ideal) x0 x1 x2) x10 (Spec.vec x11) x12 (Spec.vec x13) x14 x3 e d := by
  rw [val_main_v40_apply, val_main_v39_apply, idx39, edge_v38, Ideal.mulf_def]
  generalize val_main_v27 (F := Ideal) x0 x1 x2 = E
  rfl

theorem idx42 (e : Fin 800000) : idx_main_v42 (StableHlo.Predicate.ixP e) = ix1 e :=
  funext fun a => Fin.ext (by match a with | ⟨0, _⟩ => rfl)
end edges

/-- The reference's second result at (n, d): the scaled edge vectors summed over the edges whose source position is n, the
    edge inputs being the reference's own gathered and joined rows. -/
theorem ref_force (x0 : S50000x128.Idx → EReal) (x1 x2 : S800000.Idx → BitVec 32) (x3 : S800000x3.Idx → EReal)
    (x10 : S256x128.Idx → EReal) (x11 : S128.Idx → EReal) (x12 : S128x64.Idx → EReal) (x13 : S64.Idx → EReal)
    (x14 : S64x1.Idx → EReal) (n : Fin 50000) (d : Fin 3) :
    val_main_v43 (F := Ideal) x0 x1 x2 x3 x10 x11 x12 x13 x14 (ix2 n d)
      = Spec.nodeForce x1 (val_main_v27 (F := Ideal) x0 x1 x2) x10 (Spec.vec x11) x12 (Spec.vec x13) x14 x3 n d := by
  unfold val_main_v43
  rw [Cert.LibSG.scatterAdd_rows _ rfl rfl rfl rfl, val_main_v41_apply, val_main_cst_3_apply, Ideal.ofBits_def,
    Ideal.ofBits_zero_f32, zero_add]
  simp only [val_main_v42_apply, idx42, edge_v40]
  generalize val_main_v27 (F := Ideal) x0 x1 x2 = E
  rfl

end Cert.ReferenceIdeal.RefSpec

end
-- ==== Proof.RefRun.lean ====
/-
  The reference program's run, its two results stated as the two output functions of its argument arrays.
-/
import proofs.«424193_j12438225289736_1_alg».proof.Proof.Gen.ReferenceIdeal.Run
import proofs.«424193_j12438225289736_1_alg».proof.Proof.Gen.ReferenceIdeal.Read
import proofs.«424193_j12438225289736_1_alg».proof.Proof.RefSpec
import proofs.«424193_j12438225289736_1_alg».proof.Proof.Outputs

set_option maxRecDepth 16384

noncomputable section

namespace Cert.ReferenceIdeal.RefRun

open Cert.ReferenceIdeal Cert.ReferenceIdeal.Gen Cert.ReferenceIdeal.Read Idealize.ShloMosaic Idealize.ShloMosaic.TcCoe Idealize.ShloMosaic.ValueIdx Idealize.SL.Sem

/-- The reference's first result as a whole array. -/
theorem ref_out0 (x0 : S50000x128.Idx → EReal) (x5 : S128x128.Idx → EReal) (x6 : S128.Idx → EReal) (x7 : S128x64.Idx → EReal)
    (x8 : S64.Idx → EReal) (x9 : S64x1.Idx → EReal) :
    val_main_v12 (F := Ideal) x0 x5 x6 x7 x8 x9 = Cert.Outputs.out0 x0 x5 x6 x7 x8 x9 := by
  -- entry by entry: the one entry is the summed perceptron output, which is what the output function returns everywhere
  funext y
  unfold Cert.Outputs.out0
  exact RefSpec.ref_prop x0 x5 x6 x7 x8 x9 y

/-- The reference's second result as a whole array. -/
theorem ref_out1 (x0 : S50000x128.Idx → EReal) (x1 x2 : S800000.Idx → BitVec 32) (x3 : S800000x3.Idx → EReal)
    (x10 : S256x128.Idx → EReal) (x11 : S128.Idx → EReal) (x12 : S128x64.Idx → EReal) (x13 : S64.Idx → EReal)
    (x14 : S64x1.Idx → EReal) :
    val_main_v43 (F := Ideal) x0 x1 x2 x3 x10 x11 x12 x13 x14 = Cert.Outputs.out1 x0 x1 x2 x3 x10 x11 x12 x13 x14 := by
  -- entry by entry: an index is the pair of its coordinates (n, d), where the result is the specification's sum at (n, d)
  funext j
  obtain ⟨n, d, rfl⟩ : ∃ n d, j = ix2 n d := ⟨j 0, j 1, eq_ix2 j⟩
  unfold Cert.Outputs.out1
  exact RefSpec.ref_force x0 x1 x2 x3 x10 x11 x12 x13 x14 n d

/-- Every weakly fair execution of the reference terminates with its two results at the output functions of the launch
    contents of its arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12)
        = Cert.Outputs.out0 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
      ∧ r.2.mem ((c.tc : Thread nD τ).loc main_v43)
        = Cert.Outputs.out1 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14) := by
  -- the run's post-condition gives each result as the operations' composed term of the launch contents; that term is
  -- the last stage of the stage-by-stage reading, which the two equations above turn into the output functions; the
  -- argument arrays are unchanged as the run says
  refine (θ_run (defs (F := Ideal)) _ _).mono (fun _ h c => ?_) (Cert.ReferenceIdeal.Value.run (F := Ideal) m ρ)
  obtain ⟨h0, h1, hargs⟩ := h c
  refine ⟨h0.trans ?_, h1.trans ?_, hargs⟩
  · exact (val_main_v12_eq (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))).trans
      (ref_out0 (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
  · exact (val_main_v43_eq (F := Ideal) m c).trans
      (ref_out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)))

end Cert.ReferenceIdeal.RefRun

end
-- ==== Proof.PreDecode.lean ====
/-
  What the precondition says of the target positions: every one lies in −50000 … 49999.

  The precondition is a conjunction built left to right; the two range conjuncts were joined last, so they are the two
  outermost: the whole is (finiteness ∧ all (position ≥ −50000)) ∧ all (position < 50000).  A conjunction that is one has
  both sides one; an `all` that is one has a one at every position; a signed comparison that is one says the inequality
  of the words read signed; the broadcast constant reads the constant.
-/
import proofs.«424193_j12438225289736_1_alg».proof.Pre_finite_inputs
import proofs.«424193_j12438225289736_1_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.Pre_finite_inputs.Decode

open Cert.Pre_finite_inputs Idealize.ShloMosaic Idealize.ShloMosaic.ValueIdx

variable {F : FTy → Type} [FloatOps F]

/-- The rank-0 shape has one index. -/
theorem subsingleton_scalar_idx : Subsingleton S_.Idx := ⟨fun _ _ => funext fun d => d.elim0⟩

/-- The word 50000 read signed is 50000. -/
theorem toInt_hi : (50000#32 : BitVec 32).toInt = 50000 := by decide
/-- The word 4294917296 read signed is −50000. -/
theorem toInt_lo : (4294917296#32 : BitVec 32).toInt = -50000 := by decide

/-- The last part of the precondition: its word is the conjunction of the word it is handed and an `all` of the signed
    comparison "position < 50000"; where it is one, both are. -/
theorem part4_one [Facts] (a2 : IVec S800000 32) (v67 : IVec S_ 1) (h : fn_part4 (F := F) a2 v67 ix0 = 1#1) (e : Fin 800000) :
    v67 ix0 = 1#1 ∧ (a2 (ix1 e)).toInt < 50000 := by
  haveI := subsingleton_scalar_idx
  obtain ⟨h1, h2⟩ := IntOp.andi_eq_one.1 h
  refine ⟨h1, ?_⟩
  have h3 := IntOp.cmpi_slt.1 (Host.reduce_andi_all _ _ _ _ _ h2 (ix1 e))
  rw [StableHlo.Predicate.bcast_scalar _ Facts.h_S_] at h3
  exact toInt_hi ▸ h3

/-- The part before it ends with the conjunction of the finiteness conjuncts and an `all` of the signed comparison
    "position ≥ −50000", handed to the last part; where the whole is one, every position lies in −50000 … 49999. -/
theorem part3_one [Facts] (a2 : IVec S800000 32) (a13 : FVec F S64 .f32) (a14 : FVec F S64x1 .f32) (v48 : IVec S_ 1)
    (v49 v50 : FVec F S128x64 .f32) (h : fn_part3 (F := F) a2 a13 a14 v48 v49 v50 ix0 = 1#1) (e : Fin 800000) :
    -50000 ≤ (a2 (ix1 e)).toInt ∧ (a2 (ix1 e)).toInt < 50000 := by
  haveI := subsingleton_scalar_idx
  obtain ⟨h67, hhi⟩ := part4_one (F := F) a2 _ h e
  refine ⟨?_, hhi⟩
  obtain ⟨-, h2⟩ := IntOp.andi_eq_one.1 h67
  have h3 := IntOp.cmpi_sge.1 (Host.reduce_andi_all _ _ _ _ _ h2 (ix1 e))
  rw [StableHlo.Predicate.bcast_scalar _ Facts.h_S_] at h3
  exact toInt_lo ▸ h3

/-- Where the precondition's word is one, every target position, read signed, lies in −50000 … 49999 (its last two conjuncts,
    each an `all` over the positions of one signed comparison with a constant). -/
theorem idx_t_range (a0 : FVec F S50000x128 .f32) (a1 a2 : IVec S800000 32) (a3 : FVec F S800000x3 .f32) (a4 : FVec F S50000x3 .f32)
    (a5 : FVec F S128x128 .f32) (a6 : FVec F S128 .f32) (a7 : FVec F S128x64 .f32) (a8 : FVec F S64 .f32) (a9 : FVec F S64x1 .f32)
    (a10 : FVec F S256x128 .f32) (a11 : FVec F S128 .f32) (a12 : FVec F S128x64 .f32) (a13 : FVec F S64 .f32) (a14 : FVec F S64x1 .f32)
    (h : Cert.Pre_finite_inputs.fn (F := F) a0 a1 a2 a3 a4 a5 a6 a7 a8 a9 a10 a11 a12 a13 a14 = fun _ => 1#1) (e : Fin 800000) :
    -50000 ≤ (a2 (ix1 e)).toInt ∧ (a2 (ix1 e)).toInt < 50000 := by
  exact part3_one (F := F) a2 a13 a14 _ _ _ (congrFun h ix0) e

end Cert.Pre_finite_inputs.Decode

end
-- ==== Proof.lean ====
/-
  The certificate: the kernel program and the reference program compute the same two results over the extended reals.

  Both apply a three-layer perceptron (affine layer, the gate z · σ(z), affine layer, the gate again, a last weighted sum) to every
  node's row and sum the outputs over all 50000 nodes; the kernel program does it 2000 rows at a time and carries the running sum
  from one grid point to the next, the reference in one sum: sums of extended reals may be regrouped freely.  Both apply a second
  perceptron to every edge's input row (its two end nodes' rows side by side), scale the edge's 3-vector by the output, and add the
  scaled vectors into the rows of a zero matrix at the edges' source positions.  The one difference is how a row is fetched: both
  count a negative position from the end and clamp the row number into the matrix, but the kernel program then replaces the row by
  a filling unless the number lies in 0 … 49999.  For a target position in −50000 … 49999 (the precondition's added conjunct) nothing
  is replaced; for a source position outside that range the edge's update lands on no node in either program, so its row does not
  matter.  At the exact instance a change of float format is the identity, a matrix product into a zero accumulator is the plain sum
  of products, and the logistic operation is 1 / (1 + e^(−z)) by definition, which is how the reference spells it.

  The frames of the two kernel programs are the generated ones; the reference's frame is its generated run with the results dropped.
-/
import proofs.«424193_j12438225289736_1_alg».proof.Defs
import proofs.«424193_j12438225289736_1_alg».proof.Proof.Gen.Kernel
import proofs.«424193_j12438225289736_1_alg».proof.Proof.Gen.Kernel.Skeleton
import proofs.«424193_j12438225289736_1_alg».proof.Proof.Gen.Kernel.Launch
import proofs.«424193_j12438225289736_1_alg».proof.Proof.Gen.Kernel.Points
import proofs.«424193_j12438225289736_1_alg».proof.Proof.Gen.Kernel.Frame
import proofs.«424193_j12438225289736_1_alg».proof.Proof.Gen.KernelIdeal
import proofs.«424193_j12438225289736_1_alg».proof.Proof.Gen.KernelIdeal.Skeleton
import proofs.«424193_j12438225289736_1_alg».proof.Proof.Gen.KernelIdeal.Launch
import proofs.«424193_j12438225289736_1_alg».proof.Proof.Gen.KernelIdeal.Points
import proofs.«424193_j12438225289736_1_alg».proof.Proof.Gen.KernelIdeal.Frame
import proofs.«424193_j12438225289736_1_alg».proof.Proof.Gen.ReferenceIdeal
import proofs.«424193_j12438225289736_1_alg».proof.Proof.Gen.ReferenceIdeal.Run
import proofs.«424193_j12438225289736_1_alg».proof.Proof.Gen.ReferenceIdeal.Read
import proofs.«424193_j12438225289736_1_alg».proof.Proof.Gen.Pre_finite_inputs
import proofs.«424193_j12438225289736_1_alg».proof.Proof.KernelRun
import proofs.«424193_j12438225289736_1_alg».proof.Proof.KernelOut0
import proofs.«424193_j12438225289736_1_alg».proof.Proof.KernelOut1
import proofs.«424193_j12438225289736_1_alg».proof.Proof.RefRun
import proofs.«424193_j12438225289736_1_alg».proof.Proof.PreDecode
import proofs.«424193_j12438225289736_1_alg».proof.Proof.Outputs
import Idealize.ShloMosaic.Adequacy
import Idealize.ShloMosaic.Init

set_option maxRecDepth 16384

noncomputable section

namespace Cert.Proof

open Idealize.ShloMosaic Idealize.ShloMosaic.ValueIdx Idealize.SL.Sem

/-- The word-level kernel program runs and leaves its arguments unchanged. -/
theorem frame_k : Cert.frame_Kernel := fun m ρ _ => Cert.Kernel.Gen.frame m ρ

/-- So does the kernel program read at the exact instance. -/
theorem frame_ki : Cert.frame_KernelIdeal := fun m ρ _ => Cert.KernelIdeal.Gen.frame m ρ

/-- The reference runs and leaves its arguments unchanged: its run, the two results dropped. -/
theorem frame_ri : Cert.frame_ReferenceIdeal := fun m ρ _ =>
  (θ_run Cert.ReferenceIdeal.defs _ _).mono (fun _ h c => (h c).2.2) (Cert.ReferenceIdeal.RefRun.run m ρ)

/-- From memories that agree on the arguments, both programs end with the two results at the same two functions of the arguments. -/
theorem algebraic : Cert.algebraic_KernelIdeal_ReferenceIdeal := by
  intro m ρ m' ρ' hpre hagree
  refine ⟨fun c => Cert.Outputs.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Outputs.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · -- the kernel program: its run, each result buffer read at the last boundary's contents
    refine (θ_run Cert.KernelIdeal.defs _ _).mono (fun r h c => ⟨(h c).1.trans ?_, (h c).2.1.trans ?_, (h c).2.2⟩)
      (Cert.KernelIdeal.Run.run_results (F := Ideal) m ρ)
    · exact Cert.KernelIdeal.Out0.kernel_out0 m ρ c
    · exact Cert.KernelIdeal.Out1.kernel_out1 m ρ c (fun e => Cert.Pre_finite_inputs.Decode.idx_t_range _ _ _ _ _ _ _ _ _ _ _ _ _ _ _ (hpre c) e)
  · -- the reference: its run over its own memory, which agrees with the kernel program's on every argument
    refine (θ_run Cert.ReferenceIdeal.defs _ _).mono (fun r h c => ⟨(h c).1.trans ?_, (h c).2.1.trans ?_, (h c).2.2⟩)
      (Cert.ReferenceIdeal.RefRun.run m' ρ')
    · obtain ⟨h0, h1, h2, h3, h4, h5, h6, h7, h8, h9, h10, h11, h12, h13, h14⟩ := hagree c
      rw [h0, h5, h6, h7, h8, h9]
    · obtain ⟨h0, h1, h2, h3, h4, h5, h6, h7, h8, h9, h10, h11, h12, h13, h14⟩ := hagree c
      rw [h0, h1, h2, h3, h10, h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
